-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1200000 : Shape := ⟨2, ![2, 1200000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part2 {F : FTy → Type} [FloatOps F] (main_arg0 : IVec S2x1200000 32) (main_v33 : IVec S_ 1) : IVec S_ 1 :=
  let main_c_12 : IVec S_ 32 := constantI S_ 32 0#32
  let main_v34 : IVec S2x1200000 32 := broadcastInDim S2x1200000 ![] bcast_S_S2x1200000 main_c_12
  let main_v35 : IVec S2x1200000 1 := cmpi .sge main_arg0 main_v34
  let main_c_13 : IVec S_ 32 := constantI S_ 32 100000#32
  let main_v36 : IVec S2x1200000 32 := broadcastInDim S2x1200000 ![] bcast_S_S2x1200000 main_c_13
  let main_v37 : IVec S2x1200000 1 := cmpi .slt main_arg0 main_v36
  let main_v38 : IVec S2x1200000 1 := andi main_v35 main_v37
  let main_c_14 : IVec S_ 1 := constantI S_ 1 1#1
  let main_v39 : IVec S_ 1 := (fun x v => Host.reduce IntOp.andi x v reducesTo_S2x1200000_S_d0_1 h_S_) main_v38 main_c_14
  let main_v40 : IVec S_ 1 := andi main_v33 main_v39
  main_v40

def fn_part1 {F : FTy → Type} [FloatOps F] (main_arg0 : IVec S2x1200000 32) (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_v33

def fn {F : FTy → Type} [FloatOps F] (main_arg0 : IVec S2x1200000 32) (main_arg1 : FVec F S100000x64 .f32) (main_arg2 : FVec F S64x64 .f32) (main_arg3 : FVec F S64x64 .f32) (main_arg4 : FVec F S64 .f32) (main_arg5 : FVec F S64x64 .f32) (main_arg6 : FVec F S64x64 .f32) (main_arg7 : FVec F S64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg5 main_arg6 main_arg7 main_v13 main_v16
-- ==== Kernel.lean ====
abbrev S2x1200000 : Shape := ⟨2, ![2, 1200000]⟩
abbrev S100000x64 : Shape := ⟨2, ![100000, 64]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1 : Shape := ⟨1, ![1]⟩
abbrev S1x1 : Shape := ⟨2, ![1, 1]⟩
abbrev S1200000x64 : Shape := ⟨2, ![1200000, 64]⟩
abbrev S1x64 : Shape := ⟨2, ![1, 64]⟩
abbrev S5000x64 : Shape := ⟨2, ![5000, 64]⟩

abbrev nBuf : Space → Nat
  | .hbm => 115
  | .vmem => 18
  | .smem => 0
  | _ => 0

abbrev bufTy : (tb : Table) → Fin (tcTables nBuf tb) → BufTy
  | .hbm, ⟨0, _⟩ => ⟨S2x1200000, .i32⟩
  | .hbm, ⟨1, _⟩ => ⟨S100000x64, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S1200000, .i1⟩
  | .hbm, ⟨13, _⟩ => ⟨S1200000, .f32⟩
  | .hbm, ⟨14, _⟩ => ⟨S_, .f32⟩
  | .hbm, ⟨15, _⟩ => ⟨S1200000, .f32⟩
  | .hbm, ⟨16, _⟩ => ⟨S1200000, .f32⟩
  | .hbm, ⟨17, _⟩ => ⟨S_, .f32⟩
  | .hbm, ⟨18, _⟩ => ⟨S100000, .f32⟩
  | .hbm, ⟨19, _⟩ => ⟨S1200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S1200000x1, .i32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1, .i32⟩
  | .hbm, ⟨47, _⟩ => ⟨S_, .i32⟩
  | .hbm, ⟨48, _⟩ => ⟨S1200000x1, .i32⟩
  | .hbm, ⟨49, _⟩ => ⟨S1200000x1, .i1⟩
  | .hbm, ⟨50, _⟩ => ⟨S1x1, .i32⟩
  | .hbm, ⟨51, _⟩ => ⟨S1200000x1, .i32⟩
  | .hbm, ⟨52, _⟩ => ⟨S1200000x1, .i1⟩
  | .hbm, ⟨53, _⟩ => ⟨S1200000x1, .i1⟩
  | .hbm, ⟨54, _⟩ => ⟨S_, .i1⟩
  | .hbm, ⟨55, _⟩ => ⟨S1200000, .i1⟩
  | .hbm, ⟨56, _⟩ => ⟨S1200000x64, .f32⟩
  | .hbm, ⟨57, _⟩ => ⟨S1200000x64, .i1⟩
  | .hbm, ⟨58, _⟩ => ⟨S_, .f32⟩
  | .hbm, ⟨59, _⟩ => ⟨S1200000x64, .f32⟩
  | .hbm, ⟨60, _⟩ => ⟨S1200000x64, .f32⟩
  | .hbm, ⟨61, _⟩ => ⟨S_, .f32⟩
  | .hbm, ⟨62, _⟩ => ⟨S100000x64, .f32⟩
  | .hbm, ⟨63, _⟩ => ⟨S1200000x1, .i32⟩
  | .hbm, ⟨64, _⟩ => ⟨S100000x64, .f32⟩
  | .hbm, ⟨65, _⟩ => ⟨S100000x1, .f32⟩
  | .hbm, ⟨66, _⟩ => ⟨S100000x1, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1200000, .i32⟩
  | .hbm, ⟨80, _⟩ => ⟨S1200000, .i1⟩
  | .hbm, ⟨81, _⟩ => ⟨S_, .i32⟩
  | .hbm, ⟨82, _⟩ => ⟨S1200000, .i32⟩
  | .hbm, ⟨83, _⟩ => ⟨S1200000, .i32⟩
  | .hbm, ⟨84, _⟩ => ⟨S1200000, .i32⟩
  | .hbm, ⟨85, _⟩ => ⟨S1200000x1, .i32⟩
  | .hbm, ⟨86, _⟩ => ⟨S1, .i32⟩
  | .hbm, ⟨87, _⟩ => ⟨S_, .i32⟩
  | .hbm, ⟨88, _⟩ => ⟨S1200000x1, .i32⟩
  | .hbm, ⟨89, _⟩ => ⟨S1200000x1, .i1⟩
  | .hbm, ⟨90, _⟩ => ⟨S1x1, .i32⟩
  | .hbm, ⟨91, _⟩ => ⟨S1200000x1, .i32⟩
  | .hbm, ⟨92, _⟩ => ⟨S1200000x1, .i1⟩
  | .hbm, ⟨93, _⟩ => ⟨S1200000x1, .i1⟩
  | .hbm, ⟨94, _⟩ => ⟨S_, .i1⟩
  | .hbm, ⟨95, _⟩ => ⟨S1200000, .i1⟩
  | .hbm, ⟨96, _⟩ => ⟨S1200000x64, .f32⟩
  | .hbm, ⟨97, _⟩ => ⟨S1200000x64, .i1⟩
  | .hbm, ⟨98, _⟩ => ⟨S_, .f32⟩
  | .hbm, ⟨99, _⟩ => ⟨S1200000x64, .f32⟩
  | .hbm, ⟨100, _⟩ => ⟨S1200000x64, .f32⟩
  | .hbm, ⟨101, _⟩ => ⟨S_, .f32⟩
  | .hbm, ⟨102, _⟩ => ⟨S100000x64, .f32⟩
  | .hbm, ⟨103, _⟩ => ⟨S1200000x1, .i32⟩
  | .hbm, ⟨104, _⟩ => ⟨S100000x64, .f32⟩
  | .hbm, ⟨105, _⟩ => ⟨S100000x1, .f32⟩
  | .hbm, ⟨106, _⟩ => ⟨S100000x1, .f32⟩
  | .hbm, ⟨107, _⟩ => ⟨S100000x1, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S1x64, .f32⟩
  | .hbm, ⟨114, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S2x1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v22 : Ref sig .tc := ⟨.hbm, 60, rfl⟩
abbrev main_cst_5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v39 : Ref sig .tc := ⟨.hbm, 100, rfl⟩
abbrev main_cst_6 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x1200000 : Shape := ⟨2, ![2, 1200000]⟩
abbrev S100000x64 : Shape := ⟨2, ![100000, 64]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 105
  | .vmem => 0
  | .smem => 0
  | _ => 0

abbrev bufTy : (tb : Table) → Fin (tcTables nBuf tb) → BufTy
  | .hbm, ⟨0, _⟩ => ⟨S2x1200000, .i32⟩
  | .hbm, ⟨1, _⟩ => ⟨S100000x64, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S1200000, .i1⟩
  | .hbm, ⟨17, _⟩ => ⟨S_, .f32⟩
  | .hbm, ⟨18, _⟩ => ⟨S_, .f32⟩
  | .hbm, ⟨19, _⟩ => ⟨S1200000, .f32⟩
  | .hbm, ⟨20, _⟩ => ⟨S1200000, .f32⟩
  | .hbm, ⟨21, _⟩ => ⟨S1200000, .f32⟩
  | .hbm, ⟨22, _⟩ => ⟨S1200000, .f32⟩
  | .hbm, ⟨23, _⟩ => ⟨S_, .f32⟩
  | .hbm, ⟨24, _⟩ => ⟨S100000, .f32⟩
  | .hbm, ⟨25, _⟩ => ⟨S1200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000, .f32⟩
  | .hbm, ⟨46, _⟩ => ⟨S1200000, .f32⟩
  | .hbm, ⟨47, _⟩ => ⟨S1200000, .f32⟩
  | .hbm, ⟨48, _⟩ => ⟨S_, .i32⟩
  | .hbm, ⟨49, _⟩ => ⟨S1200000, .i32⟩
  | .hbm, ⟨50, _⟩ => ⟨S1200000, .i1⟩
  | .hbm, ⟨51, _⟩ => ⟨S_, .i32⟩
  | .hbm, ⟨52, _⟩ => ⟨S1200000, .i32⟩
  | .hbm, ⟨53, _⟩ => ⟨S1200000, .i32⟩
  | .hbm, ⟨54, _⟩ => ⟨S1200000, .i32⟩
  | .hbm, ⟨55, _⟩ => ⟨S1200000x1, .i32⟩
  | .hbm, ⟨56, _⟩ => ⟨S1200000, .f32⟩
  | .hbm, ⟨57, _⟩ => ⟨S1200000, .f32⟩
  | .hbm, ⟨58, _⟩ => ⟨S1200000x1, .f32⟩
  | .hbm, ⟨59, _⟩ => ⟨S_, .i32⟩
  | .hbm, ⟨60, _⟩ => ⟨S1200000, .i32⟩
  | .hbm, ⟨61, _⟩ => ⟨S1200000, .i1⟩
  | .hbm, ⟨62, _⟩ => ⟨S_, .i32⟩
  | .hbm, ⟨63, _⟩ => ⟨S1200000, .i32⟩
  | .hbm, ⟨64, _⟩ => ⟨S1200000, .i32⟩
  | .hbm, ⟨65, _⟩ => ⟨S1200000, .i32⟩
  | .hbm, ⟨66, _⟩ => ⟨S1200000x1, .i32⟩
  | .hbm, ⟨67, _⟩ => ⟨S1200000x64, .f32⟩
  | .hbm, ⟨68, _⟩ => ⟨S1200000x64, .f32⟩
  | .hbm, ⟨69, _⟩ => ⟨S1200000x64, .f32⟩
  | .hbm, ⟨70, _⟩ => ⟨S_, .f32⟩
  | .hbm, ⟨71, _⟩ => ⟨S100000x64, .f32⟩
  | .hbm, ⟨72, _⟩ => ⟨S1200000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S1200000x1, .f32⟩
  | .hbm, ⟨84, _⟩ => ⟨S_, .i32⟩
  | .hbm, ⟨85, _⟩ => ⟨S1200000, .i32⟩
  | .hbm, ⟨86, _⟩ => ⟨S1200000, .i1⟩
  | .hbm, ⟨87, _⟩ => ⟨S_, .i32⟩
  | .hbm, ⟨88, _⟩ => ⟨S1200000, .i32⟩
  | .hbm, ⟨89, _⟩ => ⟨S1200000, .i32⟩
  | .hbm, ⟨90, _⟩ => ⟨S1200000, .i32⟩
  | .hbm, ⟨91, _⟩ => ⟨S1200000x1, .i32⟩
  | .hbm, ⟨92, _⟩ => ⟨S1200000x64, .f32⟩
  | .hbm, ⟨93, _⟩ => ⟨S1200000x64, .f32⟩
  | .hbm, ⟨94, _⟩ => ⟨S1200000x64, .f32⟩
  | .hbm, ⟨95, _⟩ => ⟨S_, .f32⟩
  | .hbm, ⟨96, _⟩ => ⟨S100000x64, .f32⟩
  | .hbm, ⟨97, _⟩ => ⟨S1200000x1, .i32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | _, _ => ⟨S2x1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call2_cst : Ref sig .tc := ⟨.hbm, 80, rfl⟩
abbrev main_call2_v0 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.ChebAlgebra.lean ====
import proofs.«404727_j81836306858502_3_alg».proof.Proof.LibIdealReal
import Mathlib.Algebra.BigOperators.Ring.Finset
import Mathlib.Tactic.Ring
import Mathlib.Tactic.SplitIfs

/-!
# The propagation step of a Chebyshev graph convolution, two ways

For edges e with source s e and target t e, inverse square-root degrees D and node features X, the
reference sums over the edges into node j the terms  (-D (s e) * w e * D (t e)) * X (s e)  with w e = 0 on a
self loop and 1 otherwise. The kernel scales the features once per node, X' = D * X, sums X' (s e) over ALL
edges into j, takes the self loops' share  c j * X' j  back out (c j the number of self loops at j), and
scales by -D j once. Over real data the two agree: on a self loop into j the term D (s e) * X (s e) IS
D j * X j, so what the kernel subtracts is exactly what the reference's weight w removes, and -D j factors
out of the sum. The subtraction needs real (finite) data: at an infinity x - x is not 0.
-/

open Cert.Lib

namespace Cert.Cheb

/-- The inclusion of the reals commutes with a choice by a condition. -/
theorem coe_ite (c : Prop) [Decidable c] (x y : ℝ) :
    ((if c then x else y : ℝ) : EReal) = if c then (x : EReal) else (y : EReal) := by
  split_ifs <;> rfl

/-- The propagation identity over the reals. P e says that edge e is summed into node j, and then its
    target is j. -/
theorem propagate_real {E N : Type} [Fintype E] [DecidableEq N] (s t : E → N) (j : N) (P : E → Prop)
    [DecidablePred P] (hP : ∀ e, P e → t e = j) (a b : N → ℝ) :
    -(a j) * ((0 + ∑ e, if P e then a (s e) * b (s e) else 0)
        - (0 + ∑ e, if P e then (if s e = t e then (1 : ℝ) else 0) else 0) * (a j * b j))
      = 0 + ∑ e, if P e then ((-(a (s e)) * (if s e = t e then (0 : ℝ) else 1)) * a (t e)) * b (s e) else 0 := by
  rw [zero_add, zero_add, zero_add, mul_sub, Finset.sum_mul, Finset.mul_sum, Finset.mul_sum, ← Finset.sum_sub_distrib]
  refine Finset.sum_congr rfl fun e _ => ?_
  by_cases hp : P e
  · have ht := hP e hp
    simp only [if_pos hp]
    by_cases hst : s e = t e
    · have hs : s e = j := hst.trans ht
      simp only [if_pos hst]
      rw [hs]; ring
    · simp only [if_neg hst]
      rw [ht]; ring
  · simp only [if_neg hp]; ring

/-- The propagation identity at the ideal float instance, for real-valued D and X: the kernel's form on
    the left, the reference's on the right. sigma is the self-loop indicator, omega its complement. -/
theorem propagate_eq {E N : Type} [Fintype E] [DecidableEq N] (s t : E → N) (j : N) (P : E → Prop)
    [DecidablePred P] (hP : ∀ e, P e → t e = j) (D X : N → EReal) (hD : ∀ n, IsReal (D n)) (hX : ∀ n, IsReal (X n))
    (sigma omega : E → EReal) (hsigma : ∀ e, sigma e = if s e = t e then 1 else 0)
    (homega : ∀ e, omega e = if s e = t e then 0 else 1) :
    -(D j) * ((0 + ∑ e, if P e then D (s e) * X (s e) else 0) - (0 + ∑ e, if P e then sigma e else 0) * (D j * X j))
      = 0 + ∑ e, if P e then ((-(D (s e)) * omega e) * D (t e)) * X (s e) else 0 := by
  choose a ha using hD
  choose b hb using hX
  have key := congrArg (fun r : ℝ => (r : EReal)) (propagate_real s t j P hP a b)
  simp only [EReal.coe_add, EReal.coe_mul, EReal.coe_neg, EReal.coe_sub, EReal.coe_zero, EReal.coe_one, coe_ite,
    ← coe_sum] at key
  simp only [ha, hb, hsigma, homega]
  exact key

/-- One minus the self-loop indicator is its complement. -/
theorem one_sub_indicator (c : Prop) [Decidable c] : (1 : EReal) - (if c then 1 else 0) = if c then 0 else 1 := by
  split_ifs
  · exact sub_self_of_isReal IsReal.one
  · simp

end Cert.Cheb
-- ==== Proof.ChebSpec.lean ====
import proofs.«404727_j81836306858502_3_alg».proof.Proof.LibIdealReal
import proofs.«404727_j81836306858502_3_alg».proof.Proof.ChebAlgebra
import Idealize.ShloMosaic.Lib.StableHlo.Predicate
import Idealize.ShloMosaic.PureOps.Ideal
import Idealize.ShloMosaic.PureOps.Ideal.Laws

/-!
# A two-layer Chebyshev graph convolution as one function of its inputs

Nodes are numbered below 100000, edges below 1200000; edge e goes from node s e to node t e; every node
carries 64 features. A self loop (s e = t e) has weight 0, every other edge weight 1. The degree of a node
is the total weight of the edges LEAVING it; dinv is degree to the power -1/2 where the degree is positive
and 0 elsewhere. One propagation step sends features x to

    (prop x) j = sum over the edges e INTO j of (-dinv (s e) * weight e * dinv (t e)) * x (s e),

and one layer is  x * W0 + (prop x) * W1 + b, followed (first layer only) by max with 0. The network is
two layers. The kernel computes the propagation step in another arrangement (propKer below); on real
(finite) features the two arrangements agree, which is the propagation identity of the algebra module.
-/

noncomputable section

open Idealize.ShloMosaic Idealize.ShloMosaic.StableHlo.Predicate Cert.Lib

namespace Cert.Cheb

/-- Node features: 100000 rows of 64. -/
abbrev Mat : Type := (⟨2, ![100000, 64]⟩ : Shape).Idx → EReal
/-- A layer's weights: 64 by 64. -/
abbrev Wt : Type := (⟨2, ![64, 64]⟩ : Shape).Idx → EReal

section Graph

variable (s t : Fin 1200000 → Fin 100000)

/-- The self-loop indicator of an edge. -/
def sigma (e : Fin 1200000) : EReal := if s e = t e then 1 else 0
/-- The weight of an edge: 0 on a self loop, 1 otherwise. -/
def omega (e : Fin 1200000) : EReal := if s e = t e then 0 else 1
/-- The degree of node j: the total weight of the edges leaving it (summed onto a zero). -/
def deg (j : Fin 100000) : EReal := 0 + ∑ e, if s e = j then omega s t e else 0
/-- degree to the power -1/2 where the degree is positive, 0 elsewhere; the three literals are the
    float words of 0, -1/2 and 0. -/
def dinvOf (d : EReal) : EReal :=
  Scalar.select (Ideal.cmp .ogt d (Ideal.ofBits .f32 0x00000000#32)) (Ideal.pow d (Ideal.ofBits .f32 0xBF000000#32))
    (Ideal.ofBits .f32 0x00000000#32)
/-- The inverse square root of the degree of node j. -/
def dinv (j : Fin 100000) : EReal := dinvOf (deg s t j)
/-- The number of self loops at node j (summed onto a zero). -/
def selfCount (j : Fin 100000) : EReal := 0 + ∑ e, if t e = j then sigma s t e else 0

/-- The propagation step as the reference arranges it. -/
def propRef (x : Mat) (j : Fin 100000) (q : Fin 64) : EReal :=
  0 + ∑ e, if t e = j then ((-(dinv s t (s e)) * omega s t e) * dinv s t (t e)) * x (ij (s e) q) else 0

/-- The propagation step as the kernel arranges it: features scaled once per node, summed over all edges
    into j, the self loops' share taken back out, scaled by -dinv j once. -/
def propKer (x : Mat) (j : Fin 100000) (q : Fin 64) : EReal :=
  -(dinv s t j) * ((0 + ∑ e, if t e = j then dinv s t (s e) * x (ij (s e) q) else 0)
    - selfCount s t j * (dinv s t j * x (ij j q)))

theorem sigma_isReal (e : Fin 1200000) : IsReal (sigma s t e) := by
  unfold sigma; split_ifs
  · exact IsReal.one
  · exact IsReal.zero

theorem omega_isReal (e : Fin 1200000) : IsReal (omega s t e) := by
  unfold omega; split_ifs
  · exact IsReal.zero
  · exact IsReal.one

theorem deg_isReal (j : Fin 100000) : IsReal (deg s t j) := by
  unfold deg
  refine IsReal.zero.add (IsReal.sum _ _ fun e _ => ?_)
  split_ifs
  · exact omega_isReal s t e
  · exact IsReal.zero

/-- The float word of -1/2 denotes a real number. -/
theorem neg_half_isReal : IsReal (Ideal.ofBits .f32 0xBF000000#32) := by
  have h : Ideal.ofBits .f32 0xBF000000#32 = ((-(1 / 2) : ℝ) : EReal) := by
    simp [Ideal.ofBits, Ideal.ieee, -EReal.coe_mul]; norm_num
  rw [h]; exact IsReal.coe _

theorem dinvOf_isReal {d : EReal} (hd : IsReal d) : IsReal (dinvOf d) := by
  obtain ⟨r, rfl⟩ := hd
  obtain ⟨y, hy⟩ := neg_half_isReal
  unfold dinvOf
  rw [Ideal.ofBits_zero_f32, hy]
  unfold Scalar.select
  split_ifs
  · exact ⟨_, rfl⟩
  · exact IsReal.zero

theorem dinv_isReal (j : Fin 100000) : IsReal (dinv s t j) := dinvOf_isReal (deg_isReal s t j)

theorem propRef_isReal (x : Mat) (hx : ∀ i, IsReal (x i)) (j : Fin 100000) (q : Fin 64) : IsReal (propRef s t x j q) := by
  unfold propRef
  refine IsReal.zero.add (IsReal.sum _ _ fun e _ => ?_)
  split_ifs
  · exact ((((dinv_isReal s t _).neg).mul (omega_isReal s t e)).mul (dinv_isReal s t _)).mul (hx _)
  · exact IsReal.zero

/-- On real features the kernel's arrangement of the propagation step is the reference's. -/
theorem propKer_eq_propRef (x : Mat) (hx : ∀ i, IsReal (x i)) (j : Fin 100000) (q : Fin 64) :
    propKer s t x j q = propRef s t x j q :=
  propagate_eq s t j (fun e => t e = j) (fun _ h => h) (dinv s t) (fun n => x (ij n q)) (dinv_isReal s t)
    (fun n => hx _) (sigma s t) (omega s t) (fun _ => rfl) (fun _ => rfl)

end Graph

/-- One layer at node p, feature q: x * W0 + tx * W1 + b (each product summed onto a zero), then max
    with 0 when relu is set. -/
def layerAt (relu : Bool) (x tx : Mat) (w0 w1 : Wt) (b : Fin 64 → EReal) (p : Fin 100000) (q : Fin 64) : EReal :=
  let v := ((0 + ∑ k : Fin 64, x (ij p k) * w0 (ij k q)) + (0 + ∑ k : Fin 64, tx (ij p k) * w1 (ij k q))) + b q
  if relu then max v 0 else v

theorem layerAt_isReal (relu : Bool) (x tx : Mat) (w0 w1 : Wt) (b : Fin 64 → EReal) (hx : ∀ i, IsReal (x i))
    (htx : ∀ i, IsReal (tx i)) (hw0 : ∀ i, IsReal (w0 i)) (hw1 : ∀ i, IsReal (w1 i)) (hb : ∀ q, IsReal (b q))
    (p : Fin 100000) (q : Fin 64) : IsReal (layerAt relu x tx w0 w1 b p q) := by
  unfold layerAt
  have hv : IsReal (((0 + ∑ k : Fin 64, x (ij p k) * w0 (ij k q)) + (0 + ∑ k : Fin 64, tx (ij p k) * w1 (ij k q))) + b q) :=
    ((IsReal.zero.add (IsReal.sum _ _ fun k _ => (hx _).mul (hw0 _))).add
      (IsReal.zero.add (IsReal.sum _ _ fun k _ => (htx _).mul (hw1 _)))).add (hb q)
  cases relu
  · exact hv
  · exact hv.max IsReal.zero

/-- A matrix given by its entries. -/
def matOf (f : Fin 100000 → Fin 64 → EReal) : Mat := fun i => f (i 0) (i 1)

theorem matOf_ij (f : Fin 100000 → Fin 64 → EReal) (p : Fin 100000) (q : Fin 64) : matOf f (ij p q) = f p q := rfl

/-- The two-layer network with a given arrangement prop of the propagation step. -/
def netWith (prop : Mat → Fin 100000 → Fin 64 → EReal) (emb : Mat) (w10 w11 : Wt) (b1 : Fin 64 → EReal)
    (w20 w21 : Wt) (b2 : Fin 64 → EReal) (p : Fin 100000) (q : Fin 64) : EReal :=
  let x1 : Mat := matOf (layerAt true emb (matOf (prop emb)) w10 w11 b1)
  layerAt false x1 (matOf (prop x1)) w20 w21 b2 p q

/-- With real inputs the network over the kernel's arrangement of the propagation step is the network over
    the reference's: the first layer's output is real, so the identity applies again in the second. -/
theorem netWith_ker_eq_ref (s t : Fin 1200000 → Fin 100000) (emb : Mat) (w10 w11 : Wt) (b1 : Fin 64 → EReal)
    (w20 w21 : Wt) (b2 : Fin 64 → EReal) (hemb : ∀ i, IsReal (emb i)) (hw10 : ∀ i, IsReal (w10 i))
    (hw11 : ∀ i, IsReal (w11 i)) (hb1 : ∀ q, IsReal (b1 q)) (p : Fin 100000) (q : Fin 64) :
    netWith (propKer s t) emb w10 w11 b1 w20 w21 b2 p q = netWith (propRef s t) emb w10 w11 b1 w20 w21 b2 p q := by
  have h1 : matOf (propKer s t emb) = matOf (propRef s t emb) := by
    funext i; exact propKer_eq_propRef s t emb hemb _ _
  have hx1 : ∀ i, IsReal (matOf (layerAt true emb (matOf (propRef s t emb)) w10 w11 b1) i) := fun i =>
    layerAt_isReal true emb _ w10 w11 b1 hemb (fun i' => propRef_isReal s t emb hemb _ _) hw10 hw11 hb1 _ _
  unfold netWith
  simp only [h1]
  have h2 : matOf (propKer s t (matOf (layerAt true emb (matOf (propRef s t emb)) w10 w11 b1)))
      = matOf (propRef s t (matOf (layerAt true emb (matOf (propRef s t emb)) w10 w11 b1))) := by
    funext i; exact propKer_eq_propRef s t _ hx1 _ _
  rw [h2]

end Cert.Cheb

end
-- ==== Proof.LibGather.lean ====
import Idealize.ShloMosaic.PureOps.Ideal
import Idealize.ShloMosaic.Lib.StableHlo.Predicate
import Idealize.ShloMosaic.Lib.ValueIdx
import Mathlib.Algebra.BigOperators.Group.Finset.Basic

/-!
# A row gather read at an index

Indexing a table of rows by a vector of row numbers gathers whole rows. This file reads that host
operation at one element, for the dimension numbers jax prints for it.
-/

open Idealize.ShloMosaic Idealize.ShloMosaic.StableHlo.Predicate

namespace Cert.Lib

/-- Gathering rows of an [N x C] table by an [n x 1] column of row numbers: the element (p, q) of the
    result is the table's element (r, q) where r is entry p of the column, read signed and clamped
    into [0, N - 1]. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (p : Fin n) (q : Fin C) (hN : 0 < N) :
    Host.gather d x idx (ij p q) = x (ij ⟨min (idx (ixP p)).toInt.toNat (N - 1), by omega⟩ q) := by
  unfold Host.gather
  congr 1
  funext a
  apply Fin.ext
  -- there are no batching axes
  have hb : ∀ a : Fin 2, a ∉ d.operandBatchingDims := fun a => by rw [hob]; exact List.not_mem_nil
  match a with
  | ⟨0, h0⟩ =>
    -- the row axis: collapsed and start-indexed, so the operand's row is the clamped start alone
    have hk : (⟨0, h0⟩ : Fin 2) ∉ d.sKept := by rw [GatherDims.mem_sKept, hcoll]; simp
    have hm : (⟨0, h0⟩ : Fin 2) ∈ d.startIndexMap := by rw [hsim]; exact List.mem_singleton.mpr rfl
    have hsl : d.sliceSizes ⟨0, h0⟩ = 1 := by rw [hss]; rfl
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes ⟨0, h0⟩) = min (idx (ixP p)).toInt.toNat (N - 1)
    rw [hsl]
    congr 3
    congr 1
    -- the start index is read at (p, 0)
    funext b
    match b with
    | ⟨0, hb0⟩ =>
      -- the batch coordinate: the result's one batch axis is axis 0 (axis 1 is the offset axis), and (p, q) has p there
      unfold GatherDims.siIdx
      rw [dif_neg (by rw [hivd]; simp)]
      unfold GatherDims.siCoord
      apply Fin.ext
      simp only [Fin.val_cast]
      have hbd : ∀ e : Fin 2, e ∈ d.batchDims → ((ij p q : (⟨2, ![n, C]⟩ : Shape).Idx) e).val = p.val := by
        intro e he
        have he' : e ∉ d.offsetDims := (List.mem_filter.1 he).2 |> fun h => by simpa using h
        rw [hoff] at he'
        match e with
        | ⟨0, _⟩ => rfl
        | ⟨1, _⟩ => exact absurd (List.mem_singleton.mpr rfl) he'
      exact hbd _ (List.getElem_mem _)
    | ⟨1, hb1⟩ =>
      -- the index vector's axis: component 0 of the start index, the only one
      unfold GatherDims.siIdx
      rw [dif_pos (by rw [hivd])]
      apply Fin.ext
      show List.idxOf (⟨0, h0⟩ : Fin 2) d.startIndexMap = 0
      rw [hsim]; simp
  | ⟨1, h1⟩ =>
    -- the column axis: neither collapsed nor start-indexed, so the operand's column is the offset coordinate,
    -- the result's coordinate on its one offset axis, axis 1, where (p, q) has q
    have hk : (⟨1, h1⟩ : Fin 2) ∈ d.sKept := by rw [GatherDims.mem_sKept, hcoll, hob]; simp
    have hm : (⟨1, h1⟩ : Fin 2) ∉ d.startIndexMap := by rw [hsim]; simp
    simp only [GatherDims.operandIdx, GatherDims.batchCoord_eq_zero _ _ _ (hb _),
      Nat.add_zero, GatherDims.start, dif_neg hm, Nat.zero_add, GatherDims.offCoord, dif_pos hk]
    have hod : ∀ e : Fin 2, e ∈ d.offsetDims → ((ij p q : (⟨2, ![n, C]⟩ : Shape).Idx) e).val = q.val := by
      intro e he
      rw [hoff] at he
      rw [List.mem_singleton.1 he]
      rfl
    exact hod _ (List.getElem_mem _)

end Cert.Lib
-- ==== Proof.LibScatter.lean ====
import Idealize.ShloMosaic.PureOps.Ideal
import Idealize.ShloMosaic.Lib.StableHlo.Predicate
import Idealize.ShloMosaic.Lib.ValueIdx
import Mathlib.Algebra.BigOperators.Group.Finset.Basic

/-!
# Two accumulating scatters read at an index

A segment sum adds every update whose segment id names the row. This file reads the host's accumulating
scatter at one element, at the ideal float instance, for the dimension numbers jax prints for a segment
sum of rows and of scalars.
-/

open Idealize.ShloMosaic Idealize.ShloMosaic.StableHlo.Predicate

namespace Cert.Lib

/-- Adding rows into an [N x C] array at the rows an [n x 1] column names: element (j, q) ends at its
    old value plus the sum of the updates' elements (e, q) over the entries e whose row number, read
    signed, is j. An entry outside [0, N) adds nothing. -/
theorem scatterAdd_rows {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![n, 1]⟩ w)
    (upd : (⟨2, ![n, C]⟩ : Shape).Idx → EReal) (j : Fin N) (q : Fin C) :
    Ideal.hostScatterAdd d x idx upd (ij j q)
      = x (ij j q) + ∑ e : Fin n, if (idx (ixP e)).toInt = (j.val : ℤ) then upd (ij e q) else 0 := by
  classical
  -- name the four dimension-number lists by their printed values
  obtain ⟨uw, iw, sd, ivd, wf⟩ := d
  dsimp only at huw hiw hsd hivd
  subst huw hiw hsd hivd
  generalize hd : (⟨[1], [0], [0], 1, wf⟩ : ScatterDims ⟨2, ![N, C]⟩ ⟨2, ![n, 1]⟩ ⟨2, ![n, C]⟩) = d
  -- the start of update (e, q') on the row axis is row e's entry of the index column, read signed …
  have hstart0 : ∀ j' : (⟨2, ![n, C]⟩ : Shape).Idx, d.start j' idx 0 = (idx (ixP (j' 0))).toInt := by
    intro j'
    subst hd
    unfold ScatterDims.start
    rw [dif_pos (List.mem_singleton.2 rfl)]
    congr 2
    funext b
    match b with
    | ⟨0, _⟩ => rfl
    | ⟨1, _⟩ => rfl
  -- … and 0 on the column axis, which the index map does not name
  have hstart1 : ∀ j' : (⟨2, ![n, C]⟩ : Shape).Idx, d.start j' idx 1 = 0 := by
    intro j'
    subst hd
    unfold ScatterDims.start
    rw [dif_neg (by show (1 : Fin 2) ∉ [(0 : Fin 2)]; decide)]
  -- the window coordinate is 0 on the inserted row axis …
  have hwin0 : ∀ j' : (⟨2, ![n, C]⟩ : Shape).Idx, d.window j' 0 = 0 := by
    intro j'
    subst hd
    unfold ScatterDims.window
    rw [dif_neg (by show (0 : Fin 2) ∉ (List.finRange 2).filter (· ∉ [(0 : Fin 2)]); decide)]
  -- … and the update's own column on the column axis
  have hwin1 : ∀ j' : (⟨2, ![n, C]⟩ : Shape).Idx, d.window j' 1 = (j' 1).val := by
    intro j'
    subst hd
    unfold ScatterDims.window
    rw [dif_pos (by show (1 : Fin 2) ∈ (List.finRange 2).filter (· ∉ [(0 : Fin 2)]); decide)]
    rfl
  -- so update (e, q') lands at (j, q) exactly when its row number, read signed, is j and q' = q
  have key : ∀ j' : (⟨2, ![n, C]⟩ : Shape).Idx,
      d.resultIdx? j' idx = some (ij j q) ↔ ((idx (ixP (j' 0))).toInt = (j.val : ℤ) ∧ j' 1 = q) := by
    intro j'
    unfold ScatterDims.resultIdx?
    split
    · next h =>
      rw [Option.some.injEq]
      constructor
      · intro e
        have e0 := congrArg (fun i => ((i 0 : Fin N) : Nat)) e
        have e1 := congrArg (fun i => ((i 1 : Fin C) : Nat)) e
        simp only [hstart0, hstart1, hwin0, hwin1] at e0 e1
        have h0 := h 0
        rw [hstart0, hwin0] at h0
        refine ⟨?_, Fin.ext ?_⟩
        · show _ = ((j : Nat) : ℤ)
          have : ((ij j q : (⟨2, ![N, C]⟩ : Shape).Idx) 0 : Nat) = j.val := rfl
          omega
        · have : ((ij j q : (⟨2, ![N, C]⟩ : Shape).Idx) 1 : Nat) = q.val := rfl
          omega
      · rintro ⟨e0, e1⟩
        funext a
        match a with
        | ⟨0, _⟩ =>
          apply Fin.ext
          show (d.start j' idx 0 + (d.window j' 0 : ℤ)).toNat = j.val
          rw [hstart0, hwin0, e0]; simp
        | ⟨1, _⟩ =>
          apply Fin.ext
          show (d.start j' idx 1 + (d.window j' 1 : ℤ)).toNat = q.val
          rw [hstart1, hwin1, e1]; simp
    · next h =>
      constructor
      · intro e; exact absurd e (by simp)
      · rintro ⟨e0, e1⟩
        exfalso; apply h
        intro a
        match a with
        | ⟨0, _⟩ =>
          show 0 ≤ d.start j' idx 0 + (d.window j' 0 : ℤ) ∧ d.start j' idx 0 + (d.window j' 0 : ℤ) < (N : ℤ)
          rw [hstart0, hwin0, e0]
          have := j.isLt; omega
        | ⟨1, _⟩ =>
          show 0 ≤ d.start j' idx 1 + (d.window j' 1 : ℤ) ∧ d.start j' idx 1 + (d.window j' 1 : ℤ) < (C : ℤ)
          rw [hstart1, hwin1]
          have : ((j' 1 : Fin C) : Nat) < C := (j' 1).isLt
          omega
  -- the two spellings of a rank-2 index from its coordinates agree
  have hij : ∀ (e : Fin n) (b : Fin C), (ValueIdx.ix2 e b : (⟨2, ![n, C]⟩ : Shape).Idx) = ij e b := by
    intro e b; funext a
    match a with
    | ⟨0, _⟩ => rfl
    | ⟨1, _⟩ => rfl
  -- the sum over the updates landing at (j, q), as a double sum over (e, q'): the inner sum keeps q' = q only
  unfold Ideal.hostScatterAdd
  congr 1
  rw [Finset.sum_filter, ValueIdx.sum_idx2]
  refine Finset.sum_congr rfl fun e _ => ?_
  by_cases ht : (idx (ixP e)).toInt = (j.val : ℤ)
  · rw [if_pos ht, Finset.sum_eq_single q]
    · rw [if_pos ((key _).2 ⟨ht, rfl⟩), hij]
    · intro b _ hb
      rw [if_neg]
      intro h; exact hb ((key _).1 h).2
    · intro h; exact absurd (Finset.mem_univ _) h
  · rw [if_neg ht]
    apply Finset.sum_eq_zero
    intro b _
    rw [if_neg]
    intro h; exact ht ((key _).1 h).1

/-- The same for a vector: element j ends at its old value plus the sum of the updates e whose position,
    read signed, is j. -/
theorem scatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (j : Fin N) :
    Ideal.hostScatterAdd d x idx upd (Shape.Idx.ofFin j)
      = x (Shape.Idx.ofFin j) + ∑ e : Fin n, if (idx (ixP e)).toInt = (j.val : ℤ) then upd (Shape.Idx.ofFin e) else 0 := by
  classical
  -- name the four dimension-number lists by their printed values
  obtain ⟨uw, iw, sd, ivd, wf⟩ := d
  dsimp only at huw hiw hsd hivd
  subst huw hiw hsd hivd
  generalize hd : (⟨[], [0], [0], 1, wf⟩ : ScatterDims ⟨1, ![N]⟩ ⟨2, ![n, 1]⟩ ⟨1, ![n]⟩) = d
  -- the start of update e on the one axis is entry e of the index column, read signed
  have hstart : ∀ j' : (⟨1, ![n]⟩ : Shape).Idx, d.start j' idx 0 = (idx (ixP (j' 0))).toInt := by
    intro j'
    subst hd
    unfold ScatterDims.start
    rw [dif_pos (List.mem_singleton.2 rfl)]
    congr 2
    funext b
    match b with
    | ⟨0, _⟩ => rfl
    | ⟨1, _⟩ => rfl
  -- the one operand axis is inserted: no window coordinate
  have hwin : ∀ j' : (⟨1, ![n]⟩ : Shape).Idx, d.window j' 0 = 0 := by
    intro j'
    subst hd
    unfold ScatterDims.window
    rw [dif_neg (by show (0 : Fin 1) ∉ (List.finRange 1).filter (· ∉ [(0 : Fin 1)]); decide)]
  -- so update e lands at j exactly when its position, read signed, is j
  have key : ∀ j' : (⟨1, ![n]⟩ : Shape).Idx,
      d.resultIdx? j' idx = some (Shape.Idx.ofFin j) ↔ (idx (ixP (j' 0))).toInt = (j.val : ℤ) := by
    intro j'
    unfold ScatterDims.resultIdx?
    split
    · next h =>
      rw [Option.some.injEq]
      constructor
      · intro e
        have e0 := congrArg (fun i => ((i 0 : Fin N) : Nat)) e
        simp only [hstart, hwin] at e0
        have h0 := h 0
        rw [hstart, hwin] at h0
        have : ((Shape.Idx.ofFin j : (⟨1, ![N]⟩ : Shape).Idx) 0 : Nat) = j.val := rfl
        omega
      · intro e0
        funext a
        match a with
        | ⟨0, _⟩ =>
          apply Fin.ext
          show (d.start j' idx 0 + (d.window j' 0 : ℤ)).toNat = j.val
          rw [hstart, hwin, e0]; simp
    · next h =>
      constructor
      · intro e; exact absurd e (by simp)
      · intro e0
        exfalso; apply h
        intro a
        match a with
        | ⟨0, _⟩ =>
          show 0 ≤ d.start j' idx 0 + (d.window j' 0 : ℤ) ∧ d.start j' idx 0 + (d.window j' 0 : ℤ) < (N : ℤ)
          rw [hstart, hwin, e0]
          have := j.isLt; omega
  -- the sum over the updates landing at j, re-indexed by the one coordinate of a rank-1 index
  unfold Ideal.hostScatterAdd
  congr 1
  rw [Finset.sum_filter]
  let E : (⟨1, ![n]⟩ : Shape).Idx ≃ Fin n :=
    ⟨fun i => i 0, Shape.Idx.ofFin, fun i => (Shape.Idx.eq_ofFin i).symm, fun k => Shape.Idx.ofFin_zero k⟩
  refine Fintype.sum_equiv E _ _ fun j' => ?_
  by_cases ht : (idx (ixP (E j'))).toInt = (j.val : ℤ)
  · exact (if_pos ((key j').2 ht)).trans ((congrArg upd (Shape.Idx.eq_ofFin j')).trans (if_pos ht).symm)
  · exact (if_neg fun h => ht ((key j').1 h)).trans (if_neg ht).symm

end Cert.Lib
-- ==== Proof.RefValue.lean ====
import proofs.«404727_j81836306858502_3_alg».proof.Proof.RefRun
import proofs.«404727_j81836306858502_3_alg».proof.Proof.RefRead
import proofs.«404727_j81836306858502_3_alg».proof.Proof.ChebSpec
import proofs.«404727_j81836306858502_3_alg».proof.Proof.LibGather
import proofs.«404727_j81836306858502_3_alg».proof.Proof.LibScatter
import Idealize.ShloMosaic.Lib.ValueIdx
import Idealize.ShloMosaic.Lib.StableHlo.Predicate
import Idealize.ShloMosaic.PureOps.Ideal.Laws

/-!
# The reference's result is the two-layer network

With every edge endpoint a node number, the reference's result array is, element by element, the network
over the reference's own arrangement of the propagation step: its segment sums are sums over the edges
into a node, its gathers read the node an edge names (the wrap of a negative index and the clamp are the
identity on a node number), its edge weight is the complement of the self-loop test, and its matrix
products are sums over the 64 features.
-/

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo.Predicate Cert.Cheb Cert.Lib

section Stages

open Cert.ReferenceIdeal.Read

variable (x0 : (⟨S2x1200000, .i32⟩ : BufTy).Contents (Elt Ideal)) (s t : Fin 1200000 → Fin 100000)

/-- The source word of edge e. -/
theorem src_word (e : Fin 1200000) : val_main_v5 (F := Ideal) x0 (Shape.Idx.ofFin e) = x0 (ij (0 : Fin 2) e) := by
  rw [val_main_v5_apply, val_main_v4_apply]
  congr 1
  funext a
  match a with
  | ⟨0, _⟩ => rfl
  | ⟨1, _⟩ => exact Fin.ext (Nat.mod_eq_of_lt e.isLt)

/-- The target word of edge e. -/
theorem tgt_word (e : Fin 1200000) : val_main_v7 (F := Ideal) x0 (Shape.Idx.ofFin e) = x0 (ij (1 : Fin 2) e) := by
  rw [val_main_v7_apply, val_main_v6_apply]
  congr 1
  funext a
  match a with
  | ⟨0, _⟩ => rfl
  | ⟨1, _⟩ => exact Fin.ext (Nat.mod_eq_of_lt e.isLt)

/-- The same two words, as the second pair of slices of the edge array reads them. -/
theorem src_word' (e : Fin 1200000) : val_main_v1 (F := Ideal) x0 (Shape.Idx.ofFin e) = x0 (ij (0 : Fin 2) e) := src_word x0 e
theorem tgt_word' (e : Fin 1200000) : val_main_v3 (F := Ideal) x0 (Shape.Idx.ofFin e) = x0 (ij (1 : Fin 2) e) := tgt_word x0 e

variable (hs : ∀ e : Fin 1200000, (x0 (ij (0 : Fin 2) e)).toInt = ((s e).val : ℤ))
  (ht : ∀ e : Fin 1200000, (x0 (ij (1 : Fin 2) e)).toInt = ((t e).val : ℤ))

include hs ht in
/-- The two words of an edge are equal exactly when its endpoints are. -/
theorem words_eq_iff (e : Fin 1200000) : x0 (ij (0 : Fin 2) e) = x0 (ij (1 : Fin 2) e) ↔ s e = t e := by
  constructor
  · intro h
    have h' := congrArg BitVec.toInt h
    rw [hs, ht] at h'
    exact Fin.ext (by exact_mod_cast h')
  · intro h
    apply BitVec.eq_of_toInt_eq
    rw [hs, ht, h]

include hs ht in
/-- The reference's edge weight is the complement of the self-loop test. -/
theorem weight_eq (e : Fin 1200000) : val_main_v10 (F := Ideal) x0 (Shape.Idx.ofFin e) = omega s t e := by
  rw [val_main_v10_apply, val_main_v9_apply, val_main_v8_apply, val_main_call0_v0_apply, val_main_call0_v1_apply,
    val_main_cst_apply, val_main_cst_0_apply, src_word, tgt_word]
  have hw := words_eq_iff x0 s t hs ht e
  unfold omega
  by_cases h : s e = t e
  · rw [if_pos h, hw.2 h]
    simp [IntOp.cmpi, Scalar.select]
  · have hne : x0 (ij (0 : Fin 2) e) ≠ x0 (ij (1 : Fin 2) e) := fun h' => h (hw.1 h')
    rw [if_neg h]
    simp [IntOp.cmpi, Scalar.select, hne, ofBits_f32_one, ofBool_eq_one_iff, bne_iff_ne]

/-- The degree stage is the ideal accumulating scatter of the weights at the source words. -/
theorem v13_def : val_main_v13 (F := Ideal) x0
    = Ideal.hostScatterAdd scatter_S100000_S1200000x1_S1200000_n_0_0_1 (val_main_v11 (F := Ideal)) (val_main_v12 (F := Ideal) x0) (val_main_v10 (F := Ideal) x0) := rfl

include hs ht in
/-- The reference's degree vector. -/
theorem deg_eq (j : Fin 100000) : val_main_v13 (F := Ideal) x0 (Shape.Idx.ofFin j) = deg s t j := by
  rw [v13_def, scatterAdd_vec _ rfl rfl rfl rfl]
  unfold deg
  rw [val_main_v11_apply, val_main_cst_1_apply, Ideal.ofBits_def, Ideal.ofBits_zero_f32]
  refine congrArg (fun z : EReal => 0 + z) (Finset.sum_congr rfl fun e _ => ?_)
  have hi : idx_main_v12 (ixP e) = Shape.Idx.ofFin e := funext fun a => by
    match a with
    | ⟨0, _⟩ => rfl
  rw [val_main_v12_apply, hi, src_word, hs, weight_eq x0 s t hs ht]
  by_cases h : s e = j
  · rw [if_pos h, if_pos (by rw [h])]
  · rw [if_neg h, if_neg (fun h' => h (Fin.ext (by exact_mod_cast h')))]

include hs ht in
/-- The reference's inverse square root of the degree. -/
theorem dinv_eq (j : Fin 100000) : val_main_v18 (F := Ideal) x0 (Shape.Idx.ofFin j) = dinv s t j := by
  rw [val_main_v18_apply, val_main_v15_apply, val_main_v17_apply, val_main_v14_apply, val_main_v16_apply,
    val_main_call1_v1_apply, val_main_call1_v0_apply, val_main_cst_2_apply, val_main_cst_3_apply, val_main_cst_4_apply,
    deg_eq x0 s t hs ht, Ideal.cmpf_def, Ideal.hostPowf_def]
  simp only [Ideal.ofBits_def]
  rfl

omit x0 in
/-- Adding the node count to a negative index: the identity on a word that reads as a natural number. -/
theorem wrap_id (w y : BitVec 32) (n : ℕ) (h : w.toInt = (n : ℤ)) : Scalar.select (IntOp.cmpi .slt w 0#32) y w = w := by
  have hlt : w.slt 0#32 = false := by
    have h0 : (0#32 : BitVec 32).toInt = 0 := by decide
    simp only [BitVec.slt, h, h0, decide_eq_false_iff_not, not_lt]
    exact Int.natCast_nonneg n
  show (if BitVec.ofBool (w.slt 0#32) = 1 then y else w) = w
  rw [hlt]
  rfl

omit x0 in
/-- The gather's clamp is the identity on a node number. -/
theorem clamp_node {N : ℕ} (w : BitVec 32) (n : Fin N) (h : w.toInt = (n.val : ℤ)) (hlt : min w.toInt.toNat (N - 1) < N) :
    (⟨min w.toInt.toNat (N - 1), hlt⟩ : Fin N) = n := by
  apply Fin.ext
  show min w.toInt.toNat (N - 1) = n.val
  rw [h, Int.toNat_natCast]
  have := n.isLt
  omega

include hs in
/-- The wrapped source index of edge e is its source word. -/
theorem wrap_src (e : Fin 1200000) : val_main_v23 (F := Ideal) x0 (Shape.Idx.ofFin e) = x0 (ij (0 : Fin 2) e) := by
  rw [val_main_v23_apply, val_main_v20_apply, val_main_v19_apply, val_main_c_apply, src_word]
  exact wrap_id _ _ (s e).val (hs e)

include ht in
/-- The wrapped target index of edge e is its target word. -/
theorem wrap_tgt (e : Fin 1200000) : val_main_v32 (F := Ideal) x0 (Shape.Idx.ofFin e) = x0 (ij (1 : Fin 2) e) := by
  rw [val_main_v32_apply, val_main_v29_apply, val_main_v28_apply, val_main_c_6_apply, tgt_word]
  exact wrap_id _ _ (t e).val (ht e)

include hs in
/-- The wrapped source index that the row gathers read. -/
theorem wrap_src' (e : Fin 1200000) : val_main_v41 (F := Ideal) x0 (Shape.Idx.ofFin e) = x0 (ij (0 : Fin 2) e) := by
  rw [val_main_v41_apply, val_main_v38_apply, val_main_v37_apply, val_main_c_8_apply, src_word']
  exact wrap_id _ _ (s e).val (hs e)

/-- dinv gathered at the wrapped source indices. -/
theorem v25_def : val_main_v25 (F := Ideal) x0
    = Host.gather gather_S100000_S1200000x1_S1200000_n_0_n_n_0_1_1 (val_main_v18 (F := Ideal) x0) (val_main_v24 (F := Ideal) x0) := rfl

/-- dinv gathered at the wrapped target indices. -/
theorem v34_def : val_main_v34 (F := Ideal) x0
    = Host.gather gather_S100000_S1200000x1_S1200000_n_0_n_n_0_1_1 (val_main_v18 (F := Ideal) x0) (val_main_v33 (F := Ideal) x0) := rfl

include hs ht in
/-- dinv gathered at the source of edge e. -/
theorem dinv_src (e : Fin 1200000) : val_main_v25 (F := Ideal) x0 (Shape.Idx.ofFin e) = dinv s t (s e) := by
  have hi : idx_main_v24 (ixP e) = Shape.Idx.ofFin e := funext fun a => by
    match a with
    | ⟨0, _⟩ => rfl
  have hw : (val_main_v24 (F := Ideal) x0 (ixP e)).toInt = ((s e).val : ℤ) := by
    rw [val_main_v24_apply, hi, wrap_src x0 s hs, hs]
  rw [v25_def, gather_take (N := 100000) (n := 1200000) _ rfl rfl rfl rfl _ _ e (by decide), clamp_node _ (s e) hw]
  exact dinv_eq x0 s t hs ht (s e)

include hs ht in
/-- dinv gathered at the target of edge e. -/
theorem dinv_tgt (e : Fin 1200000) : val_main_v34 (F := Ideal) x0 (Shape.Idx.ofFin e) = dinv s t (t e) := by
  have hi : idx_main_v33 (ixP e) = Shape.Idx.ofFin e := funext fun a => by
    match a with
    | ⟨0, _⟩ => rfl
  have hw : (val_main_v33 (F := Ideal) x0 (ixP e)).toInt = ((t e).val : ℤ) := by
    rw [val_main_v33_apply, hi, wrap_tgt x0 t ht, ht]
  rw [v34_def, gather_take (N := 100000) (n := 1200000) _ rfl rfl rfl rfl _ _ e (by decide), clamp_node _ (t e) hw]
  exact dinv_eq x0 s t hs ht (t e)

include hs ht in
/-- The reference's coefficient of edge e. -/
theorem norm_eq (e : Fin 1200000) :
    val_main_v35 (F := Ideal) x0 (Shape.Idx.ofFin e) = (-(dinv s t (s e)) * omega s t e) * dinv s t (t e) := by
  rw [val_main_v35_apply, val_main_v27_apply, val_main_v26_apply, dinv_src x0 s t hs ht, dinv_tgt x0 s t hs ht,
    weight_eq x0 s t hs ht]
  simp only [Ideal.mulf_def, Ideal.hostNegf_def, Ideal.negf_def]

include hs in
/-- Rows of any feature matrix gathered at the sources: row e of the result is row (s e) of the matrix. -/
theorem rows_src (x : (⟨S100000x64, .f32⟩ : BufTy).Contents (Elt Ideal)) (e : Fin 1200000) (q : Fin 64) :
    Host.gather gather_S100000x64_S1200000x1_S1200000x64_1_0_n_n_0_1_164 x (val_main_v42 (F := Ideal) x0) (ij e q)
      = x (ij (s e) q) := by
  have hi : idx_main_v42 (ixP e) = Shape.Idx.ofFin e := funext fun a => by
    match a with
    | ⟨0, _⟩ => rfl
  have hw : (val_main_v42 (F := Ideal) x0 (ixP e)).toInt = ((s e).val : ℤ) := by
    rw [val_main_v42_apply, hi, wrap_src' x0 s hs, hs]
  rw [gather_rows (N := 100000) (C := 64) (n := 1200000) _ rfl rfl rfl rfl rfl rfl _ _ e q (by decide), clamp_node _ (s e) hw]

include hs ht in
/-- One update of the second segment sum: the edge's coefficient times the gathered feature. -/
theorem upd_eq (x : (⟨S100000x64, .f32⟩ : BufTy).Contents (Elt Ideal)) (e : Fin 1200000) (q : Fin 64) :
    mulf (F := Ideal) (φ := .f32) (val_main_v44 (F := Ideal) x0)
        (Host.gather gather_S100000x64_S1200000x1_S1200000x64_1_0_n_n_0_1_164 x (val_main_v42 (F := Ideal) x0)) (ij e q)
      = ((-(dinv s t (s e)) * omega s t e) * dinv s t (t e)) * x (ij (s e) q) := by
  have h44 : idx_main_v44 (ij e q) = ixP e := funext fun a => by
    match a with
    | ⟨0, _⟩ => rfl
    | ⟨1, _⟩ => rfl
  have h36 : idx_main_v36 (ixP e) = Shape.Idx.ofFin e := funext fun a => by
    match a with
    | ⟨0, _⟩ => rfl
  have hv : val_main_v44 (F := Ideal) x0 (ij e q) = (-(dinv s t (s e)) * omega s t e) * dinv s t (t e) := by
    rw [val_main_v44_apply, h44, val_main_v36_apply, h36, norm_eq x0 s t hs ht]
  rw [ValueIdx.mulf_apply, hv, rows_src x0 s hs]

include hs ht in
/-- The propagated features: the segment sum over the targets of coefficient times gathered row, for any features. -/
theorem prop_eq (x : (⟨S100000x64, .f32⟩ : BufTy).Contents (Elt Ideal)) (j : Fin 100000) (q : Fin 64) :
    Ideal.hostScatterAdd scatter_S100000x64_S1200000x1_S1200000x64_1_0_0_1 (val_main_v46 (F := Ideal)) (val_main_v47 (F := Ideal) x0)
        (mulf (F := Ideal) (φ := .f32) (val_main_v44 (F := Ideal) x0)
          (Host.gather gather_S100000x64_S1200000x1_S1200000x64_1_0_n_n_0_1_164 x (val_main_v42 (F := Ideal) x0))) (ij j q)
      = propRef s t x j q := by
  rw [scatterAdd_rows _ rfl rfl rfl rfl]
  unfold propRef
  rw [val_main_v46_apply, val_main_cst_10_apply, Ideal.ofBits_def, Ideal.ofBits_zero_f32]
  refine congrArg (fun z : EReal => 0 + z) (Finset.sum_congr rfl fun e _ => ?_)
  have hi : idx_main_v47 (ixP e) = Shape.Idx.ofFin e := funext fun a => by
    match a with
    | ⟨0, _⟩ => rfl
  rw [val_main_v47_apply, hi, tgt_word', ht, upd_eq x0 s t hs ht]
  by_cases h : t e = j
  · rw [if_pos h, if_pos (by rw [h])]
  · rw [if_neg h, if_neg (fun h' => h (Fin.ext (by exact_mod_cast h')))]
/-- The first layer's propagated features are the accumulating scatter, at the target words, of coefficient times gathered row. -/
theorem v48_def (x1 : (⟨S100000x64, .f32⟩ : BufTy).Contents (Elt Ideal)) : val_main_v48 (F := Ideal) x0 x1
    = Ideal.hostScatterAdd scatter_S100000x64_S1200000x1_S1200000x64_1_0_0_1 (val_main_v46 (F := Ideal)) (val_main_v47 (F := Ideal) x0)
        (mulf (F := Ideal) (φ := .f32) (val_main_v44 (F := Ideal) x0)
          (Host.gather gather_S100000x64_S1200000x1_S1200000x64_1_0_n_n_0_1_164 x1 (val_main_v42 (F := Ideal) x0))) := rfl

/-- The second layer's are the same scatter over the first layer's output. -/
theorem v68_def (x1 : (⟨S100000x64, .f32⟩ : BufTy).Contents (Elt Ideal)) (x2 x3 : (⟨S64x64, .f32⟩ : BufTy).Contents (Elt Ideal))
    (x4 : (⟨S64, .f32⟩ : BufTy).Contents (Elt Ideal)) : val_main_v68 (F := Ideal) x0 x1 x2 x3 x4
    = Ideal.hostScatterAdd scatter_S100000x64_S1200000x1_S1200000x64_1_0_0_1 (val_main_v46 (F := Ideal)) (val_main_v47 (F := Ideal) x0)
        (mulf (F := Ideal) (φ := .f32) (val_main_v44 (F := Ideal) x0)
          (Host.gather gather_S100000x64_S1200000x1_S1200000x64_1_0_n_n_0_1_164 (val_main_v55 (F := Ideal) x0 x1 x2 x3 x4) (val_main_v42 (F := Ideal) x0))) := rfl

include hs ht in
/-- The first layer's propagated features. -/
theorem prop1_eq (x1 : (⟨S100000x64, .f32⟩ : BufTy).Contents (Elt Ideal)) (j : Fin 100000) (q : Fin 64) :
    val_main_v48 (F := Ideal) x0 x1 (ij j q) = propRef s t x1 j q := by
  rw [v48_def]
  exact prop_eq x0 s t hs ht x1 j q

include hs ht in
/-- The second layer's propagated features: the same step over the first layer's output. -/
theorem prop2_eq (x1 : (⟨S100000x64, .f32⟩ : BufTy).Contents (Elt Ideal)) (x2 x3 : (⟨S64x64, .f32⟩ : BufTy).Contents (Elt Ideal))
    (x4 : (⟨S64, .f32⟩ : BufTy).Contents (Elt Ideal)) (j : Fin 100000) (q : Fin 64) :
    val_main_v68 (F := Ideal) x0 x1 x2 x3 x4 (ij j q) = propRef s t (val_main_v55 (F := Ideal) x0 x1 x2 x3 x4) j q := by
  rw [v68_def]
  exact prop_eq x0 s t hs ht _ j q
include hs ht in
/-- The first layer before its relu, at (p, q). -/
theorem layer1_eq (x1 : (⟨S100000x64, .f32⟩ : BufTy).Contents (Elt Ideal)) (x2 x3 : (⟨S64x64, .f32⟩ : BufTy).Contents (Elt Ideal))
    (x4 : (⟨S64, .f32⟩ : BufTy).Contents (Elt Ideal)) (p : Fin 100000) (q : Fin 64) :
    val_main_v54 (F := Ideal) x0 x1 x2 x3 x4 (ij p q)
      = layerAt false x1 (matOf (propRef s t x1)) x2 x3 (fun k => x4 (Shape.Idx.ofFin k)) p q := by
  have hl : ∀ k : Fin 64, lidx_main_v49 (ij p q) k = ij p k := fun k => funext fun a => by
    match a with
    | ⟨0, _⟩ => rfl
    | ⟨1, _⟩ => rfl
  have hr : ∀ k : Fin 64, ridx_main_v49 (ij p q) k = ij k q := fun k => funext fun a => by
    match a with
    | ⟨0, _⟩ => rfl
    | ⟨1, _⟩ => rfl
  have hl' : ∀ k : Fin 64, lidx_main_v50 (ij p q) k = ij p k := fun k => funext fun a => by
    match a with
    | ⟨0, _⟩ => rfl
    | ⟨1, _⟩ => rfl
  have hr' : ∀ k : Fin 64, ridx_main_v50 (ij p q) k = ij k q := fun k => funext fun a => by
    match a with
    | ⟨0, _⟩ => rfl
    | ⟨1, _⟩ => rfl
  have hb : idx_main_v52 (idx_main_v53 (ij p q)) = Shape.Idx.ofFin q := funext fun a => by
    match a with
    | ⟨0, _⟩ => rfl
  rw [val_main_v54_apply, val_main_v51_apply, val_main_v49_apply, val_main_v50_apply, val_main_v53_apply, val_main_v52_apply, hb,
    Ideal.addf_def, Ideal.addf_def]
  simp only [hl, hr, hl', hr', prop1_eq x0 s t hs ht]
  simp only [layerAt, matOf_ij, zero_add, Bool.false_eq_true, if_false]

include hs ht in
/-- The first layer's output, as a matrix. -/
theorem hidden_eq (x1 : (⟨S100000x64, .f32⟩ : BufTy).Contents (Elt Ideal)) (x2 x3 : (⟨S64x64, .f32⟩ : BufTy).Contents (Elt Ideal))
    (x4 : (⟨S64, .f32⟩ : BufTy).Contents (Elt Ideal)) :
    val_main_v55 (F := Ideal) x0 x1 x2 x3 x4
      = matOf (layerAt true x1 (matOf (propRef s t x1)) x2 x3 (fun k => x4 (Shape.Idx.ofFin k))) := by
  funext i
  obtain ⟨p, q, rfl⟩ : ∃ (p : Fin 100000) (q : Fin 64), i = ij p q := ⟨i 0, i 1, (ij_eta i).symm⟩
  rw [matOf_ij, val_main_v55_apply, val_main_call2_v0_apply, val_main_call2_cst_apply, layer1_eq x0 s t hs ht,
    Ideal.maximumf_def, Ideal.ofBits_def, Ideal.ofBits_zero_f32]
  simp only [layerAt, Bool.false_eq_true, if_false, if_true]

include hs ht in
/-- The second layer at (p, q), over the first layer's output. -/
theorem layer2_eq (x1 : (⟨S100000x64, .f32⟩ : BufTy).Contents (Elt Ideal)) (x2 x3 : (⟨S64x64, .f32⟩ : BufTy).Contents (Elt Ideal))
    (x4 : (⟨S64, .f32⟩ : BufTy).Contents (Elt Ideal)) (x5 x6 : (⟨S64x64, .f32⟩ : BufTy).Contents (Elt Ideal))
    (x7 : (⟨S64, .f32⟩ : BufTy).Contents (Elt Ideal)) (p : Fin 100000) (q : Fin 64) :
    val_main_v74 (F := Ideal) x0 x1 x2 x3 x4 x5 x6 x7 (ij p q)
      = layerAt false (val_main_v55 (F := Ideal) x0 x1 x2 x3 x4)
          (matOf (propRef s t (val_main_v55 (F := Ideal) x0 x1 x2 x3 x4))) x5 x6 (fun k => x7 (Shape.Idx.ofFin k)) p q := by
  have hl : ∀ k : Fin 64, lidx_main_v69 (ij p q) k = ij p k := fun k => funext fun a => by
    match a with
    | ⟨0, _⟩ => rfl
    | ⟨1, _⟩ => rfl
  have hr : ∀ k : Fin 64, ridx_main_v69 (ij p q) k = ij k q := fun k => funext fun a => by
    match a with
    | ⟨0, _⟩ => rfl
    | ⟨1, _⟩ => rfl
  have hl' : ∀ k : Fin 64, lidx_main_v70 (ij p q) k = ij p k := fun k => funext fun a => by
    match a with
    | ⟨0, _⟩ => rfl
    | ⟨1, _⟩ => rfl
  have hr' : ∀ k : Fin 64, ridx_main_v70 (ij p q) k = ij k q := fun k => funext fun a => by
    match a with
    | ⟨0, _⟩ => rfl
    | ⟨1, _⟩ => rfl
  have hb : idx_main_v72 (idx_main_v73 (ij p q)) = Shape.Idx.ofFin q := funext fun a => by
    match a with
    | ⟨0, _⟩ => rfl
  rw [val_main_v74_apply, val_main_v71_apply, val_main_v69_apply, val_main_v70_apply, val_main_v73_apply, val_main_v72_apply, hb,
    Ideal.addf_def, Ideal.addf_def]
  simp only [hl, hr, hl', hr', prop2_eq x0 s t hs ht]
  simp only [layerAt, matOf_ij, zero_add, Bool.false_eq_true, if_false]

end Stages

/-- The reference run's result term at (p, q), from a launch memory whose edge array holds node numbers
    (s e the source of edge e, t e its target, both read signed off rows 0 and 1 of the edge array). -/
theorem result_eq (m : (ℓ : Loc nD τ sig) → Buf (Elt Ideal) ℓ) (c : Dev nD) (s t : Fin 1200000 → Fin 100000)
    (hs : ∀ e : Fin 1200000, ((m ((c.tc : Thread nD τ).loc main_arg0) : IVec S2x1200000 32) (ij (0 : Fin 2) e)).toInt = ((s e).val : ℤ))
    (ht : ∀ e : Fin 1200000, ((m ((c.tc : Thread nD τ).loc main_arg0) : IVec S2x1200000 32) (ij (1 : Fin 2) e)).toInt = ((t e).val : ℤ))
    (p : Fin 100000) (q : Fin 64) :
    (Cert.ReferenceIdeal.Value.res_main_v74 (F := Ideal) m c : S100000x64.Idx → EReal) (ij p q)
      = netWith (propRef s t) (m ((c.tc : Thread nD τ).loc main_arg1)) (m ((c.tc : Thread nD τ).loc main_arg2))
          (m ((c.tc : Thread nD τ).loc main_arg3)) (fun k => (m ((c.tc : Thread nD τ).loc main_arg4) : S64.Idx → EReal) (Shape.Idx.ofFin k))
          (m ((c.tc : Thread nD τ).loc main_arg5)) (m ((c.tc : Thread nD τ).loc main_arg6))
          (fun k => (m ((c.tc : Thread nD τ).loc main_arg7) : S64.Idx → EReal) (Shape.Idx.ofFin k)) p q := by
  rw [Cert.ReferenceIdeal.Read.val_main_v74_eq, layer2_eq _ s t hs ht, hidden_eq _ s t hs ht]
  rfl

end Cert.ReferenceIdeal.RefValue

end
-- ==== Proof.KernelStages.lean ====
import proofs.«404727_j81836306858502_3_alg».proof.KernelIdeal
import Idealize.ShloMosaic.PureOps

/-!
# The host stages of the kernel program, as named functions

The kernel program's host code, between the launch and each kernel launch, computes from the edge array:
the sources and targets of the edges (rows 0 and 1), the self-loop mask, the degrees (a segment sum of
one minus the mask over the sources), dinv (degree to the power -1/2 where positive, else 0), the self-loop
counts (a segment sum of the mask over the targets); and from features x: the scaled features dinv * x,
their rows taken at the edges' sources (a take that fills a row with the not-a-number word where the
source is not a node number), the segment sum of those rows over the targets, and the propagated
features  -dinv * (that sum - count * scaled features). Each is written here once, generic in the float
instance, in the operations the program prints.
-/

noncomputable section

namespace Cert.KernelIdeal.Stages

open Cert.KernelIdeal Idealize.ShloMosaic

variable {F : FTy → Type} [FloatOps F] [Facts]
open Facts₀ Facts

/-- Row 0 of the edge array: the edges' sources. -/
def srcV (ei : IVec S2x1200000 32) : IVec S1200000 32 :=
  shapeCast S1200000 (extractStridedSlice S1x1200000 ![0, 0] ei slices_S2x1200000_S1x1200000_0_0) shapeCasts_S1x1200000_S1200000

/-- Row 1 of the edge array: the edges' targets. -/
def dstV (ei : IVec S2x1200000 32) : IVec S1200000 32 :=
  shapeCast S1200000 (extractStridedSlice S1x1200000 ![1, 0] ei slices_S2x1200000_S1x1200000_1_0) shapeCasts_S1x1200000_S1200000

/-- The self-loop mask as a float: 1 where source and target are the same word, else 0. -/
def selfV (ei : IVec S2x1200000 32) : FVec F S1200000 .f32 :=
  uitofp (F := F) .f32 (cmpi .eq (srcV ei) (dstV ei))

/-- A vector of node values as a column, then along the 64 features. -/
def rowsV (D : FVec F S100000 .f32) : FVec F S100000x64 .f32 :=
  broadcastInDim S100000x64 ![0, 1] bcast_S100000x1_S100000x64_0_1 (broadcastInDim S100000x1 ![0] bcast_S100000_S100000x1_0 D)

/-- A vector of edge words as a column of scatter or gather indices. -/
def colV (w : IVec S1200000 32) : IVec S1200000x1 32 :=
  broadcastInDim S1200000x1 ![0] bcast_S1200000_S1200000x1_0 w

/-- The degrees: one minus the self-loop mask, summed over the edges by source onto zeros. -/
def degV (ei : IVec S2x1200000 32) : FVec F S100000 .f32 :=
  Host.scatterAdd scatter_S100000_S1200000x1_S1200000_n_0_0_1
    (broadcastInDim S100000 ![] bcast_S_S100000 (constant S_ .f32 0x00000000#32))
    (colV (srcV ei))
    (subf (broadcastInDim S1200000 ![] bcast_S_S1200000 (constant S_ .f32 0x3F800000#32)) (selfV ei))

/-- dinv: the degree to the power -1/2 where the degree is above 0, else 0. -/
def dinvV (ei : IVec S2x1200000 32) : FVec F S100000 .f32 :=
  select (cmpf (F := F) .ogt (degV ei) (broadcastInDim S100000 ![] bcast_S_S100000 (constant S_ .f32 0x00000000#32)))
    (Host.powf (degV ei) (broadcastInDim S100000 ![] bcast_S_S100000 (constant S_ .f32 0xBF000000#32)))
    (broadcastInDim S100000 ![] bcast_S_S100000 (id (constant S_ .f32 0x00000000#32)))

/-- The self-loop counts: the mask summed over the edges by target onto zeros. -/
def cntV (ei : IVec S2x1200000 32) : FVec F S100000 .f32 :=
  Host.scatterAdd scatter_S100000_S1200000x1_S1200000_n_0_0_1
    (broadcastInDim S100000 ![] bcast_S_S100000 (constant S_ .f32 0x00000000#32))
    (colV (dstV ei)) (selfV ei)

/-- A source word below 0 has the number of nodes added (a negative index counts from the end). -/
def wrapV (src : IVec S1200000 32) : IVec S1200000 32 :=
  select (cmpi .slt src (broadcastInDim S1200000 ![] bcast_S_S1200000 (constantI S_ 32 0#32)))
    (addi src (broadcastInDim S1200000 ![] bcast_S_S1200000 (constantI S_ 32 100000#32))) src

/-- The rows of xp at the edges' sources: where the wrapped source is in [0, 99999] the row the gather reads,
    elsewhere a row of the not-a-number word. -/
def takeV (xp : FVec F S100000x64 .f32) (src : IVec S1200000 32) : FVec F S1200000x64 .f32 :=
  select
    (broadcastInDim S1200000x64 ![0] bcast_S1200000_S1200000x64_0
      (Host.reduce IntOp.andi
        (andi (cmpi .sge (colV (wrapV src)) (broadcastInDim S1200000x1 ![] bcast_S_S1200000x1 (constantI S_ 32 0#32)))
          (cmpi .sle (colV (wrapV src))
            (broadcastInDim S1200000x1 ![0, 1] bcast_S1x1_S1200000x1_0_1
              (broadcastInDim S1x1 ![1] bcast_S1_S1x1_1 (constantI S1 32 99999#32)))))
        (constantI S_ 1 1#1) reducesTo_S1200000x1_S1200000_d1 h_S_))
    (Host.gather gather_S100000x64_S1200000x1_S1200000x64_1_0_n_n_0_1_164 xp (colV (wrapV src)))
    (broadcastInDim S1200000x64 ![] bcast_S_S1200000x64 (constant S_ .f32 0x7FC00000#32))

/-- The features scaled once per node. -/
def scaleV (D : FVec F S100000 .f32) (x : FVec F S100000x64 .f32) : FVec F S100000x64 .f32 := mulf (rowsV D) x

/-- The propagated features: -D * (the segment sum over the targets of the scaled features' rows at the
    sources, less count * scaled features). -/
def txV (D Cn : FVec F S100000 .f32) (src dst : IVec S1200000 32) (x : FVec F S100000x64 .f32) : FVec F S100000x64 .f32 :=
  mulf
    (broadcastInDim S100000x64 ![0, 1] bcast_S100000x1_S100000x64_0_1
      (Host.negf (broadcastInDim S100000x1 ![0] bcast_S100000_S100000x1_0 D)))
    (subf
      (Host.scatterAdd scatter_S100000x64_S1200000x1_S1200000x64_1_0_0_1
        (broadcastInDim S100000x64 ![] bcast_S_S100000x64 (constant S_ .f32 0x00000000#32))
        (colV dst) (takeV (scaleV D x) src))
      (mulf (rowsV Cn) (scaleV D x)))

end Cert.KernelIdeal.Stages

end
-- ==== Proof.KernelTake.lean ====
import proofs.«404727_j81836306858502_3_alg».proof.Proof.Gen.KernelIdeal.Frame
import proofs.«404727_j81836306858502_3_alg».proof.Proof.KernelStages
import Idealize.ShloMosaic.Lib.StableHlo.Run

/-!
# The take of rows at the edges' sources, as the host code of each launch computes it

The stretch of host operations that jax outlines as its take, over ANY contents before it: from the scaled
features and the source words it leaves the stage takeV of the two (the wrap of negative words, the range
mask, the gather, and the fill where the mask is clear). Each value of the outlined function passes
through its buffer's own type and back, which changes nothing.
-/

set_option maxRecDepth 16384

noncomputable section

namespace Cert.KernelIdeal.HostValue

open Cert.KernelIdeal Cert.KernelIdeal.Gen Cert.KernelIdeal.Stages Idealize.ShloMosaic Idealize.ShloMosaic.TcCoe
open Idealize.SL.Sem Idealize.ShloMosaic.StableHlo

variable {F : FTy → Type} [FloatOps F]

/-- Contents carried to a buffer's own type and back are the contents. -/
theorem ofBuf_toBuf {Val : EltTy → Type} {T : BufTy} (x : TRef sig T) (v : T.Contents Val) : x.ofBuf (x.toBuf v) = v := by
  obtain ⟨r, h, _, _⟩ := x
  subst h
  rfl

/-- The take, spelt in the operations the stretch prints, is the stage takeV. -/
theorem take_clean (xp : FVec F S100000x64 .f32) (src : IVec S1200000 32) :
    select
      (broadcastInDim S1200000x64 ![0] bcast_S1200000_S1200000x64_0
        ((fun x v => Host.reduce IntOp.andi x v reducesTo_S1200000x1_S1200000_d1 h_S_)
          (andi
            (cmpi CmpIPredicate.sge
              (broadcastInDim S1200000x1 ![0] bcast_S1200000_S1200000x1_0
                (select (cmpi CmpIPredicate.slt src (broadcastInDim S1200000 ![] bcast_S_S1200000 (constantI S_ 32 0#32)))
                  (addi src (broadcastInDim S1200000 ![] bcast_S_S1200000 (constantI S_ 32 100000#32))) src))
              (broadcastInDim S1200000x1 ![] bcast_S_S1200000x1 (constantI S_ 32 0#32)))
            (cmpi CmpIPredicate.sle
              (broadcastInDim S1200000x1 ![0] bcast_S1200000_S1200000x1_0
                (select (cmpi CmpIPredicate.slt src (broadcastInDim S1200000 ![] bcast_S_S1200000 (constantI S_ 32 0#32)))
                  (addi src (broadcastInDim S1200000 ![] bcast_S_S1200000 (constantI S_ 32 100000#32))) src))
              (broadcastInDim S1200000x1 ![0, 1] bcast_S1x1_S1200000x1_0_1
                (broadcastInDim S1x1 ![1] bcast_S1_S1x1_1 (constantI S1 32 99999#32)))))
          (constantI S_ 1 1#1)))
      ((fun x i => Host.gather gather_S100000x64_S1200000x1_S1200000x64_1_0_n_n_0_1_164 x i) xp
        (broadcastInDim S1200000x1 ![0] bcast_S1200000_S1200000x1_0
          (select (cmpi CmpIPredicate.slt src (broadcastInDim S1200000 ![] bcast_S_S1200000 (constantI S_ 32 0#32)))
            (addi src (broadcastInDim S1200000 ![] bcast_S_S1200000 (constantI S_ 32 100000#32))) src)))
      (broadcastInDim S1200000x64 ![] bcast_S_S1200000x64 (constant S_ FTy.f32 2143289344#32))
    = takeV (F := F) xp src := rfl

set_option maxHeartbeats 4000000 in
theorem take0 (V : Valuation τ sig (Elt F)) :
    StableHlo.after hostOps0_3 V (Proc.devRef .tc main_v22)
      = takeV (F := F) (V (Proc.devRef .tc main_v21)) (V (Proc.devRef .tc main_v1)) := by
  have e1 : (TRef.of main_v1 : TRef sig ⟨S1200000, .i32⟩).ofBuf (V (Proc.devRef .tc main_v1)) = V (Proc.devRef .tc main_v1) := rfl
  have e2 : (TRef.of main_v21 : TRef sig ⟨S100000x64, .f32⟩).ofBuf (V (Proc.devRef .tc main_v21)) = V (Proc.devRef .tc main_v21) := rfl
  have e3 : ∀ X : (⟨S1200000x64, .f32⟩ : BufTy).Contents (Elt F), (TRef.of main_v22 : TRef sig ⟨S1200000x64, .f32⟩).toBuf X = X :=
    fun _ => rfl
  simp only [hostOps0_3]
  after_results
  repeat rw [ofBuf_toBuf]
  rw [e1, e2, e3]
  exact take_clean _ _

set_option maxHeartbeats 4000000 in
theorem take1 (V : Valuation τ sig (Elt F)) :
    StableHlo.after hostOps1_1 V (Proc.devRef .tc main_v39)
      = takeV (F := F) (V (Proc.devRef .tc main_v38)) (V (Proc.devRef .tc main_v1)) := by
  have e1 : (TRef.of main_v1 : TRef sig ⟨S1200000, .i32⟩).ofBuf (V (Proc.devRef .tc main_v1)) = V (Proc.devRef .tc main_v1) := rfl
  have e2 : (TRef.of main_v38 : TRef sig ⟨S100000x64, .f32⟩).ofBuf (V (Proc.devRef .tc main_v38)) = V (Proc.devRef .tc main_v38) := rfl
  have e3 : ∀ X : (⟨S1200000x64, .f32⟩ : BufTy).Contents (Elt F), (TRef.of main_v39 : TRef sig ⟨S1200000x64, .f32⟩).toBuf X = X :=
    fun _ => rfl
  simp only [hostOps1_1]
  after_results
  repeat rw [ofBuf_toBuf]
  rw [e1, e2, e3]
  exact take_clean _ _

end Cert.KernelIdeal.HostValue

end
-- ==== Proof.KernelHost.lean ====
import proofs.«404727_j81836306858502_3_alg».proof.Proof.Gen.KernelIdeal.Frame
import proofs.«404727_j81836306858502_3_alg».proof.Proof.KernelStages
import proofs.«404727_j81836306858502_3_alg».proof.Proof.KernelTake
import Idealize.ShloMosaic.Lib.StableHlo.Run

/-!
# What the two kernel launches find in their input arrays

The buffers' contents at each launch are the fold of the host operations before it. Read back, the
arrays the first launch stages are: the features as launched, their propagated form (the stage txV over
dinv, the self-loop counts, sources and targets, all functions of the edge array), the two weights as
launched and the bias reshaped to a row. The second launch finds the same stages over the FIRST launch's
output in place of the launched features, the second layer's weights and bias; dinv, counts, sources and
targets are still those of the first stretch (nothing between writes them). The propagated form is read
stretch by stretch: the scaled features, the rows taken at the sources, and the closing combination.
-/

set_option maxRecDepth 16384

noncomputable section

namespace Cert.KernelIdeal.HostValue

open Cert.KernelIdeal Cert.KernelIdeal.Gen Cert.KernelIdeal.Stages Idealize.ShloMosaic Idealize.ShloMosaic.TcCoe
open Idealize.SL.Sem Idealize.ShloMosaic.StableHlo

variable {F : FTy → Type} [FloatOps F]
variable (m : (ℓ : Loc nD τ sig) → Buf (Elt F) ℓ) (ρ : Dev nD → PrngReg)

/-- Rewrites each host operation's result in the goal, then closes it by unfolding. -/
macro "read_ops" : tactic =>
  `(tactic| (
    after_results_simp
    try simp only [TRef.ofBuf, TRef.toBuf, cast_eq]
    try rfl))

/-- From the first launch's entry back to the launch memory: all five stretches. -/
macro "read_entry0" : tactic =>
  `(tactic| (
    show StableHlo.after hostOps0_4 (StableHlo.after hostOps0_3 (StableHlo.after hostOps0_2 (StableHlo.after hostOps0_1
      (StableHlo.after hostOps0 (W0 _ _ _))))) _ = _
    simp only [hostOps0_4, hostOps0_3, hostOps0_2, hostOps0_1, hostOps0]
    read_ops))

/-- From before the last stretch of the first launch back to the launch memory. -/
macro "read_level4" : tactic =>
  `(tactic| (
    show StableHlo.after hostOps0_3 (StableHlo.after hostOps0_2 (StableHlo.after hostOps0_1
      (StableHlo.after hostOps0 (W0 _ _ _)))) _ = _
    simp only [hostOps0_3, hostOps0_2, hostOps0_1, hostOps0]
    read_ops))

/-- From before the take of the first launch back to the launch memory. -/
macro "read_level3" : tactic =>
  `(tactic| (
    show StableHlo.after hostOps0_2 (StableHlo.after hostOps0_1 (StableHlo.after hostOps0 (W0 _ _ _))) _ = _
    simp only [hostOps0_2, hostOps0_1, hostOps0]
    read_ops))

/-- From the second launch's entry back to the first launch's exit: the three stretches between. -/
macro "read_entry1" : tactic =>
  `(tactic| (
    show StableHlo.after hostOps1_2 (StableHlo.after hostOps1_1 (StableHlo.after hostOps1 (W6 _ _ _))) _ = _
    simp only [hostOps1_2, hostOps1_1, hostOps1]
    read_ops))

/-- From before the last stretch of the second launch back to the first launch's exit. -/
macro "read_level8" : tactic =>
  `(tactic| (
    show StableHlo.after hostOps1_1 (StableHlo.after hostOps1 (W6 _ _ _)) _ = _
    simp only [hostOps1_1, hostOps1]
    read_ops))

/-- From before the take of the second launch back to the first launch's exit. -/
macro "read_level7" : tactic =>
  `(tactic| (
    show StableHlo.after hostOps1 (W6 _ _ _) _ = _
    simp only [hostOps1]
    read_ops))

/-! ## The closing combination, as a function of what the last stretch reads -/

/-- -D * (the segment sum over the targets of the taken rows, less count * scaled features). -/
def txTop (D Cn : FVec F S100000 .f32) (dst : IVec S1200000 32) (taken : FVec F S1200000x64 .f32)
    (xp : FVec F S100000x64 .f32) : FVec F S100000x64 .f32 :=
  mulf
    (broadcastInDim S100000x64 ![0, 1] bcast_S100000x1_S100000x64_0_1
      (Host.negf (broadcastInDim S100000x1 ![0] bcast_S100000_S100000x1_0 D)))
    (subf
      (Host.scatterAdd scatter_S100000x64_S1200000x1_S1200000x64_1_0_0_1
        (broadcastInDim S100000x64 ![] bcast_S_S100000x64 (constant S_ .f32 0x00000000#32))
        (colV dst) taken)
      (mulf (rowsV Cn) xp))

theorem txV_eq_top (D Cn : FVec F S100000 .f32) (src dst : IVec S1200000 32) (x : FVec F S100000x64 .f32) :
    txV D Cn src dst x = txTop D Cn dst (takeV (scaleV D x) src) (scaleV D x) := rfl

/-! ## The last stretch of each launch, over ANY contents before it -/

set_option maxHeartbeats 4000000 in
theorem top0 (V : Valuation τ sig (Elt F)) :
    StableHlo.after hostOps0_4 V (Proc.devRef .tc main_v33)
      = txTop (F := F) (V (Proc.devRef .tc main_v15)) (V (Proc.devRef .tc main_v18)) (V (Proc.devRef .tc main_v3))
          (V (Proc.devRef .tc main_v22)) (V (Proc.devRef .tc main_v21)) := by
  simp only [hostOps0_4]
  read_ops

set_option maxHeartbeats 4000000 in
theorem top1 (V : Valuation τ sig (Elt F)) :
    StableHlo.after hostOps1_2 V (Proc.devRef .tc main_v50)
      = txTop (F := F) (V (Proc.devRef .tc main_v15)) (V (Proc.devRef .tc main_v18)) (V (Proc.devRef .tc main_v3))
          (V (Proc.devRef .tc main_v39)) (V (Proc.devRef .tc main_v38)) := by
  simp only [hostOps1_2]
  read_ops

/-! ## At the first launch -/

set_option maxHeartbeats 4000000 in
theorem src_at5 (c : Dev nD) : W5 m ρ c (Proc.devRef .tc main_v1) = srcV (m ((c : Thread nD τ).loc main_arg0)) := by
  read_entry0

set_option maxHeartbeats 4000000 in
theorem dst_at5 (c : Dev nD) : W5 m ρ c (Proc.devRef .tc main_v3) = dstV (m ((c : Thread nD τ).loc main_arg0)) := by
  read_entry0

set_option maxHeartbeats 4000000 in
theorem dinv_at5 (c : Dev nD) :
    W5 m ρ c (Proc.devRef .tc main_v15) = dinvV (F := F) (m ((c : Thread nD τ).loc main_arg0)) := by
  read_entry0

set_option maxHeartbeats 4000000 in
theorem cnt_at5 (c : Dev nD) :
    W5 m ρ c (Proc.devRef .tc main_v18) = cntV (F := F) (m ((c : Thread nD τ).loc main_arg0)) := by
  read_entry0

set_option maxHeartbeats 4000000 in
theorem dst_at4 (c : Dev nD) : W4 m ρ c (Proc.devRef .tc main_v3) = dstV (m ((c : Thread nD τ).loc main_arg0)) := by
  read_level4

set_option maxHeartbeats 4000000 in
theorem dinv_at4 (c : Dev nD) :
    W4 m ρ c (Proc.devRef .tc main_v15) = dinvV (F := F) (m ((c : Thread nD τ).loc main_arg0)) := by
  read_level4

set_option maxHeartbeats 4000000 in
theorem cnt_at4 (c : Dev nD) :
    W4 m ρ c (Proc.devRef .tc main_v18) = cntV (F := F) (m ((c : Thread nD τ).loc main_arg0)) := by
  read_level4

set_option maxHeartbeats 4000000 in
theorem scaled_at3 (c : Dev nD) :
    W3 m ρ c (Proc.devRef .tc main_v21)
      = scaleV (F := F) (dinvV (m ((c : Thread nD τ).loc main_arg0))) (m ((c : Thread nD τ).loc main_arg1)) := by
  read_level3

set_option maxHeartbeats 4000000 in
theorem src_at3 (c : Dev nD) : W3 m ρ c (Proc.devRef .tc main_v1) = srcV (m ((c : Thread nD τ).loc main_arg0)) := by
  read_level3

set_option maxHeartbeats 4000000 in
theorem scaled_at4 (c : Dev nD) :
    W4 m ρ c (Proc.devRef .tc main_v21) = W3 m ρ c (Proc.devRef .tc main_v21) := by
  show StableHlo.after hostOps0_3 (W3 m ρ c) _ = _
  generalize W3 m ρ c = V
  simp only [hostOps0_3]
  read_ops

/-- The propagated features the first launch stages. -/
theorem tx_at5 (c : Dev nD) :
    W5 m ρ c (Proc.devRef .tc main_v33)
      = txV (F := F) (dinvV (m ((c : Thread nD τ).loc main_arg0))) (cntV (m ((c : Thread nD τ).loc main_arg0)))
          (srcV (m ((c : Thread nD τ).loc main_arg0))) (dstV (m ((c : Thread nD τ).loc main_arg0)))
          (m ((c : Thread nD τ).loc main_arg1)) := by
  have h4 : W4 m ρ c (Proc.devRef .tc main_v22)
      = takeV (F := F) (W3 m ρ c (Proc.devRef .tc main_v21)) (W3 m ρ c (Proc.devRef .tc main_v1)) := take0 (W3 m ρ c)
  rw [txV_eq_top]
  refine (top0 (W4 m ρ c)).trans ?_
  rw [dinv_at4, cnt_at4, dst_at4, h4, scaled_at4, scaled_at3, src_at3]

set_option maxHeartbeats 4000000 in
theorem bias_at5 (c : Dev nD) :
    W5 m ρ c (Proc.devRef .tc main_v34) = shapeCast S1x64 (m ((c : Thread nD τ).loc main_arg4)) shapeCasts_S64_S1x64 := by
  read_entry0

set_option maxHeartbeats 4000000 in
theorem x_at5 (c : Dev nD) : W5 m ρ c (Proc.devRef .tc main_arg1) = m ((c : Thread nD τ).loc main_arg1) := by
  read_entry0

set_option maxHeartbeats 4000000 in
theorem w0_at5 (c : Dev nD) : W5 m ρ c (Proc.devRef .tc main_arg2) = m ((c : Thread nD τ).loc main_arg2) := by
  read_entry0

set_option maxHeartbeats 4000000 in
theorem w1_at5 (c : Dev nD) : W5 m ρ c (Proc.devRef .tc main_arg3) = m ((c : Thread nD τ).loc main_arg3) := by
  read_entry0

set_option maxHeartbeats 4000000 in
theorem arg5_at5 (c : Dev nD) : W5 m ρ c (Proc.devRef .tc main_arg5) = m ((c : Thread nD τ).loc main_arg5) := by
  read_entry0

set_option maxHeartbeats 4000000 in
theorem arg6_at5 (c : Dev nD) : W5 m ρ c (Proc.devRef .tc main_arg6) = m ((c : Thread nD τ).loc main_arg6) := by
  read_entry0

set_option maxHeartbeats 4000000 in
theorem arg7_at5 (c : Dev nD) : W5 m ρ c (Proc.devRef .tc main_arg7) = m ((c : Thread nD τ).loc main_arg7) := by
  read_entry0

/-! ## At the second launch, over the first launch's exit contents -/

set_option maxHeartbeats 4000000 in
theorem dinv_at8 (c : Dev nD) : W8 m ρ c (Proc.devRef .tc main_v15) = W6 m ρ c (Proc.devRef .tc main_v15) := by
  read_level8

set_option maxHeartbeats 4000000 in
theorem cnt_at8 (c : Dev nD) : W8 m ρ c (Proc.devRef .tc main_v18) = W6 m ρ c (Proc.devRef .tc main_v18) := by
  read_level8

set_option maxHeartbeats 4000000 in
theorem dst_at8 (c : Dev nD) : W8 m ρ c (Proc.devRef .tc main_v3) = W6 m ρ c (Proc.devRef .tc main_v3) := by
  read_level8

set_option maxHeartbeats 4000000 in
theorem scaled_at7 (c : Dev nD) :
    W7 m ρ c (Proc.devRef .tc main_v38)
      = scaleV (F := F) (W6 m ρ c (Proc.devRef .tc main_v15)) (W6 m ρ c (Proc.devRef .tc main_v35)) := by
  read_level7

set_option maxHeartbeats 4000000 in
theorem src_at7 (c : Dev nD) : W7 m ρ c (Proc.devRef .tc main_v1) = W6 m ρ c (Proc.devRef .tc main_v1) := by
  read_level7

set_option maxHeartbeats 4000000 in
theorem scaled_at8 (c : Dev nD) :
    W8 m ρ c (Proc.devRef .tc main_v38) = W7 m ρ c (Proc.devRef .tc main_v38) := by
  show StableHlo.after hostOps1_1 (W7 m ρ c) _ = _
  generalize W7 m ρ c = V
  simp only [hostOps1_1]
  read_ops

/-- The propagated features the second launch stages, over the first launch's exit contents. -/
theorem tx_at9 (c : Dev nD) :
    W9 m ρ c (Proc.devRef .tc main_v50)
      = txV (F := F) (W6 m ρ c (Proc.devRef .tc main_v15)) (W6 m ρ c (Proc.devRef .tc main_v18))
          (W6 m ρ c (Proc.devRef .tc main_v1)) (W6 m ρ c (Proc.devRef .tc main_v3))
          (W6 m ρ c (Proc.devRef .tc main_v35)) := by
  have h8 : W8 m ρ c (Proc.devRef .tc main_v39)
      = takeV (F := F) (W7 m ρ c (Proc.devRef .tc main_v38)) (W7 m ρ c (Proc.devRef .tc main_v1)) := take1 (W7 m ρ c)
  rw [txV_eq_top]
  refine (top1 (W8 m ρ c)).trans ?_
  rw [dinv_at8, cnt_at8, dst_at8, h8, scaled_at8, scaled_at7, src_at7]

set_option maxHeartbeats 4000000 in
theorem x_at9 (c : Dev nD) : W9 m ρ c (Proc.devRef .tc main_v35) = W6 m ρ c (Proc.devRef .tc main_v35) := by
  read_entry1

set_option maxHeartbeats 4000000 in
theorem bias_at9 (c : Dev nD) :
    W9 m ρ c (Proc.devRef .tc main_v51)
      = shapeCast S1x64 (W6 m ρ c (Proc.devRef .tc main_arg7)) shapeCasts_S64_S1x64 := by
  read_entry1

set_option maxHeartbeats 4000000 in
theorem w0_at9 (c : Dev nD) : W9 m ρ c (Proc.devRef .tc main_arg5) = W6 m ρ c (Proc.devRef .tc main_arg5) := by
  read_entry1

set_option maxHeartbeats 4000000 in
theorem w1_at9 (c : Dev nD) : W9 m ρ c (Proc.devRef .tc main_arg6) = W6 m ρ c (Proc.devRef .tc main_arg6) := by
  read_entry1

end Cert.KernelIdeal.HostValue

end
-- ==== Proof.KernelStagesRead.lean ====
import proofs.«404727_j81836306858502_3_alg».proof.Proof.KernelStages
import proofs.«404727_j81836306858502_3_alg».proof.Proof.ChebSpec
import proofs.«404727_j81836306858502_3_alg».proof.Proof.LibGather
import proofs.«404727_j81836306858502_3_alg».proof.Proof.LibScatter
import Idealize.ShloMosaic.Lib.Pipeline.Value
import Idealize.ShloMosaic.Lib.ValueIdx
import Idealize.ShloMosaic.Lib.ReduceAll
import Idealize.ShloMosaic.Lib.StableHlo.Predicate
import Idealize.ShloMosaic.PureOps.Ideal.Laws

/-!
# The kernel program's host stages, element by element

With every edge endpoint a node number (s e the source of edge e, t e its target), the stages of the kernel
program's host code read at one element: sources and targets are rows 0 and 1 of the edge array; dinv and
the self-loop counts are the specification's; the take reads the row the source names (the wrap of a
negative index is the identity, the range mask is all ones, the gather's clamp is the identity); and the
propagated features are the kernel's arrangement of the propagation step.
-/

noncomputable section

namespace Cert.KernelIdeal.Stages

open Cert.KernelIdeal Idealize.ShloMosaic Idealize.ShloMosaic.StableHlo.Predicate Cert.Cheb Cert.Lib

variable [Facts]

/-! ## General lemmas: sums, splats, broadcasts, the and-reduction, node-number words -/

/-- A sum onto a value that is 0, term by term. -/
theorem zero_add_sum_congr {ι : Type} [Fintype ι] {z : EReal} {f g : ι → EReal} (hz : z = 0) (h : ∀ e, f e = g e) :
    z + ∑ e, f e = 0 + ∑ e, g e := by
  rw [hz, Finset.sum_congr rfl fun e _ => h e]

/-- The host's power at an index, at the ideal instance. -/
theorem hostPowf_apply {s : Shape} {φ : FTy} (x y : FVec Ideal s φ) (i : s.Idx) : Host.powf x y i = Ideal.pow (x i) (y i) := rfl

/-- The host's negation at an index, at the ideal instance. -/
theorem hostNegf_apply {s : Shape} {φ : FTy} (x : FVec Ideal s φ) (i : s.Idx) : Host.negf x i = -(x i) := rfl

/-- A broadcast of an integer splat reads the splat's value everywhere. -/
theorem bcastI_apply {s t : Shape} (dims : Fin s.rank → Fin t.rank) (h : s.BroadcastsInDim t dims) (w : Nat) (b : BitVec w)
    (j : t.Idx) : broadcastInDim t dims h (constantI s w b) j = b := rfl

/-- Two broadcasts of an integer splat read the splat's value everywhere. -/
theorem bcastI2_apply {s t t' : Shape} (dims : Fin s.rank → Fin t.rank) (h : s.BroadcastsInDim t dims)
    (dims' : Fin t.rank → Fin t'.rank) (h' : t.BroadcastsInDim t' dims') (w : Nat) (b : BitVec w) (j : t'.Idx) :
    broadcastInDim t' dims' h' (broadcastInDim t dims h (constantI s w b)) j = b := rfl

/-- A broadcast of a float splat reads, at the ideal instance, the value of the splat's pattern everywhere. -/
theorem bcastF_apply {s t : Shape} (dims : Fin s.rank → Fin t.rank) (h : s.BroadcastsInDim t dims) (φ : FTy) (b : BitVec φ.bits)
    (j : t.Idx) : broadcastInDim t dims h (constant (F := Ideal) s φ b) j = Ideal.ofBits φ b := rfl

/-- A vector laid along the first axis of an [n x m] rectangle reads, at (p, q), the vector at p. -/
theorem bcast_vec_rows {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ij p q) = v (Shape.Idx.ofFin p) := by
  refine broadcastInDim_apply _ h v (ij p q) (Shape.Idx.ofFin p) fun a => ?_
  have ha : a = 0 := Subsingleton.elim _ _
  subst ha
  have hp := p.isLt
  split
  · next h1 => change n = 1 at h1; show p.val = 0; omega
  · rfl

/-- Every index of an [n x 1] column is row (its first coordinate) of the column. -/
theorem eq_ixP {n : Nat} (i : (⟨2, ![n, 1]⟩ : Shape).Idx) : i = ixP (i 0) := by
  funext a
  match a with
  | ⟨0, _⟩ => rfl
  | ⟨1, h1⟩ =>
    apply Fin.ext
    have hlt : (i ⟨1, h1⟩).val < 1 := (i ⟨1, h1⟩).isLt
    show (i ⟨1, h1⟩).val = 0
    omega

/-- A left fold by and over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduce by and, from 1, of an array of 1s is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x hx _

/-- A word whose signed value is a node number is at least 0 and at most 99999, signed. -/
theorem in_range_word (w : BitVec 32) (n : Fin 100000) (hw : w.toInt = (n.val : ℤ)) :
    IntOp.andi (IntOp.cmpi .sge w 0#32) (IntOp.cmpi .sle w 99999#32) = 1#1 := by
  rw [IntOp.andi_eq_one]
  unfold IntOp.cmpi
  simp only [ofBool_eq_one_iff, BitVec.sle, decide_eq_true_eq]
  have z : (0#32 : BitVec 32).toInt = 0 := by decide
  have c : (99999#32 : BitVec 32).toInt = 99999 := by decide
  rw [z, c, hw]
  have := n.isLt
  constructor <;> omega

/-- A word whose signed value is a node number is not below 0, signed. -/
theorem not_neg_word (w : BitVec 32) (n : Fin 100000) (hw : w.toInt = (n.val : ℤ)) : IntOp.cmpi .slt w 0#32 = 0#1 := by
  apply ValueIdx.eq_zero_of_ne_one
  unfold IntOp.cmpi
  simp only [ofBool_eq_one_iff, BitVec.slt, decide_eq_true_eq]
  have z : (0#32 : BitVec 32).toInt = 0 := by decide
  rw [z, hw]
  omega

/-- An integer comparison of vectors at an index. -/
theorem cmpiV_apply {s : Shape} {w : Nat} (p : CmpIPredicate) (a b : IVec s w) (i : s.Idx) :
    cmpi p a b i = IntOp.cmpi p (a i) (b i) := rfl

/-- The and of two vectors at an index. -/
theorem andiV_apply {s : Shape} {w : Nat} (a b : IVec s w) (i : s.Idx) : andi a b i = IntOp.andi (a i) (b i) := rfl

/-- A word whose signed value is node number n has signed value j exactly when n = j. -/
theorem toInt_eq_iff (w : BitVec 32) (n j : Fin 100000) (hw : w.toInt = (n.val : ℤ)) : w.toInt = (j.val : ℤ) ↔ n = j := by
  rw [hw]
  constructor
  · intro h; exact Fin.ext (by exact_mod_cast h)
  · intro h; rw [h]

/-! ## Sources and targets -/

/-- A slice of row r of a [2 x n] array, reshaped to [n], reads the array at (r, e). -/
theorem rowSlice_apply {α : Type} {n : Nat} (r : Fin 2) (x : (⟨2, ![2, n]⟩ : Shape).Idx → α)
    (hs : (⟨2, ![2, n]⟩ : Shape).Slices ![r.val, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![r.val, 0] x hs) hc (Shape.Idx.ofFin e) = x (ij r e) := by
  refine (shapeCast_apply _ hc (Shape.Idx.ofFin e) (ij (0 : Fin 1) e) ?_).trans ?_
  · rw [Shape.rowMajor_val_two, Shape.rowMajor_val_one]
    show 0 * n + e.val = e.val
    omega
  · refine extractStridedSlice_apply _ x hs (ij (0 : Fin 1) e) (ij r e) fun a => ?_
    match a with
    | ⟨0, _⟩ => show r.val = r.val + 0; omega
    | ⟨1, _⟩ => show e.val = 0 + e.val; omega

theorem srcV_apply (ei : IVec S2x1200000 32) (e : Fin 1200000) :
    srcV ei (Shape.Idx.ofFin e) = ei (ij (0 : Fin 2) e) := by
  exact rowSlice_apply (0 : Fin 2) ei _ _ e

theorem dstV_apply (ei : IVec S2x1200000 32) (e : Fin 1200000) :
    dstV ei (Shape.Idx.ofFin e) = ei (ij (1 : Fin 2) e) := by
  exact rowSlice_apply (1 : Fin 2) ei _ _ e

/-- A vector as a column reads, at (e, 0), the vector at e. -/
theorem colV_apply (w : IVec S1200000 32) (e : Fin 1200000) : colV w (ixP e) = w (Shape.Idx.ofFin e) :=
  bcast_col1 _ w e

/-! ## Degrees, dinv and self-loop counts -/

section Nodes

variable (ei : IVec S2x1200000 32) (s t : Fin 1200000 → Fin 100000)
  (hs : ∀ e : Fin 1200000, (ei (ij (0 : Fin 2) e)).toInt = ((s e).val : ℤ))
  (ht : ∀ e : Fin 1200000, (ei (ij (1 : Fin 2) e)).toInt = ((t e).val : ℤ))

include hs ht

/-- Source and target words of an edge are the same word exactly when the edge is a self loop. -/
theorem word_eq_iff (e : Fin 1200000) : ei (ij (0 : Fin 2) e) = ei (ij (1 : Fin 2) e) ↔ s e = t e := by
  constructor
  · intro h
    have h1 := hs e
    rw [h, ht e] at h1
    exact Fin.ext (by exact_mod_cast h1.symm)
  · intro h
    apply BitVec.eq_of_toInt_eq
    rw [hs e, ht e, h]

/-- The self-loop mask as a float, at edge e, is the self-loop indicator. -/
theorem selfV_apply (e : Fin 1200000) : selfV (F := Ideal) ei (Shape.Idx.ofFin e) = sigma s t e := by
  show (((IntOp.cmpi .eq (srcV ei (Shape.Idx.ofFin e)) (dstV ei (Shape.Idx.ofFin e))).toNat : ℝ) : EReal) = _
  rw [srcV_apply, dstV_apply]
  unfold sigma
  by_cases h : s e = t e
  · rw [if_pos h, cmpi_eq_iff.2 ((word_eq_iff ei s t hs ht e).2 h)]
    simp
  · rw [if_neg h]
    rw [ValueIdx.eq_zero_of_ne_one fun hc => h ((word_eq_iff ei s t hs ht e).1 (cmpi_eq_iff.1 hc))]
    simp

/-- The degree at node j is the specification's. -/
theorem degV_apply (j : Fin 100000) : degV (F := Ideal) ei (Shape.Idx.ofFin j) = deg s t j := by
  have h2 := scatterAdd_vec scatter_S100000_S1200000x1_S1200000_n_0_0_1 rfl rfl rfl rfl
    (broadcastInDim S100000 ![] Facts₀.bcast_S_S100000 (constant (F := Ideal) S_ .f32 0x00000000#32))
    (colV (srcV ei))
    (subf (broadcastInDim S1200000 ![] Facts₀.bcast_S_S1200000 (constant (F := Ideal) S_ .f32 0x3F800000#32)) (selfV ei)) j
  rw [degV, Host.scatterAdd, Ideal.hostScatterAdd_def, h2, deg]
  refine zero_add_sum_congr ?_ fun e => ?_
  · rw [bcast_scalar _ Facts₀.h_S_, ValueIdx.constant_apply]
    exact Ideal.ofBits_zero_f32
  · rw [colV_apply, srcV_apply]
    refine if_congr (toInt_eq_iff _ (s e) j (hs e)) ?_ rfl
    rw [ValueIdx.subf_apply, bcast_scalar _ Facts₀.h_S_, ValueIdx.constant_apply, ofBits_f32_one,
      selfV_apply ei s t hs ht, sigma, omega]
    exact one_sub_indicator _

/-- dinv at node j is the specification's. -/
theorem dinvV_apply (j : Fin 100000) : dinvV (F := Ideal) ei (Shape.Idx.ofFin j) = dinv s t j := by
  rw [dinvV, ValueIdx.select_apply, ValueIdx.cmpf_apply, Ideal.cmpf_def, hostPowf_apply, degV_apply ei s t hs ht,
    bcast_scalar _ Facts₀.h_S_, bcast_scalar _ Facts₀.h_S_, bcast_scalar _ Facts₀.h_S_, id_eq,
    ValueIdx.constant_apply, ValueIdx.constant_apply, dinv, dinvOf]

/-- The self-loop count at node j is the specification's. -/
theorem cntV_apply (j : Fin 100000) : cntV (F := Ideal) ei (Shape.Idx.ofFin j) = selfCount s t j := by
  have h2 := scatterAdd_vec scatter_S100000_S1200000x1_S1200000_n_0_0_1 rfl rfl rfl rfl
    (broadcastInDim S100000 ![] Facts₀.bcast_S_S100000 (constant (F := Ideal) S_ .f32 0x00000000#32))
    (colV (dstV ei)) (selfV (F := Ideal) ei) j
  rw [cntV, Host.scatterAdd, Ideal.hostScatterAdd_def, h2, selfCount]
  refine zero_add_sum_congr ?_ fun e => ?_
  · rw [bcast_scalar _ Facts₀.h_S_, ValueIdx.constant_apply]
    exact Ideal.ofBits_zero_f32
  · rw [colV_apply, dstV_apply]
    exact if_congr (toInt_eq_iff _ (t e) j (ht e)) (selfV_apply ei s t hs ht e) rfl

end Nodes

/-! ## The take -/

section Take

variable (s : Fin 1200000 → Fin 100000) (src : IVec S1200000 32)
  (hsrc : ∀ e : Fin 1200000, (src (Shape.Idx.ofFin e)).toInt = ((s e).val : ℤ))

include hsrc

/-- The wrap of a source word that is a node number is the word itself. -/
theorem wrapV_apply (e : Fin 1200000) : wrapV src (Shape.Idx.ofFin e) = src (Shape.Idx.ofFin e) := by
  rw [wrapV, ValueIdx.select_apply, cmpiV_apply, bcastI_apply, not_neg_word _ (s e) (hsrc e), ValueIdx.select_zero]

/-- The index column of the take, at row e, read signed, is the node number s e. -/
theorem takeIdx_toInt (e : Fin 1200000) : (colV (wrapV src) (ixP e)).toInt = ((s e).val : ℤ) := by
  rw [colV_apply, wrapV_apply s src hsrc, hsrc e]

/-- The range test of the take holds at every row. -/
theorem takeMask_one (i : S1200000x1.Idx) :
    andi (cmpi .sge (colV (wrapV src)) (broadcastInDim S1200000x1 ![] Facts₀.bcast_S_S1200000x1 (constantI S_ 32 0#32)))
      (cmpi .sle (colV (wrapV src))
        (broadcastInDim S1200000x1 ![0, 1] Facts₀.bcast_S1x1_S1200000x1_0_1
          (broadcastInDim S1x1 ![1] Facts₀.bcast_S1_S1x1_1 (constantI S1 32 99999#32)))) i = 1#1 := by
  rw [andiV_apply, cmpiV_apply, cmpiV_apply, bcastI_apply, bcastI2_apply]
  refine in_range_word _ (s (i 0)) ?_
  rw [eq_ixP i]
  exact takeIdx_toInt s src hsrc (i 0)

/-- The take of the rows of xp at the sources reads, at (e, q), row s e of xp. -/
theorem takeV_apply (xp : FVec Ideal S100000x64 .f32) (e : Fin 1200000) (q : Fin 64) :
    takeV xp src (ij e q) = xp (ij (s e) q) := by
  rw [takeV, ValueIdx.select_apply, bcast_vec_rows,
    reduce_andi_of_all _ _ _ _ rfl (takeMask_one s src hsrc), ValueIdx.select_one,
    gather_rows gather_S100000x64_S1200000x1_S1200000x64_1_0_n_n_0_1_164 rfl rfl rfl rfl rfl rfl xp (colV (wrapV src)) e q
      (by decide)]
  refine congrArg (fun p : Fin 100000 => xp (ij p q)) (Fin.ext ?_)
  show min (colV (wrapV src) (ixP e)).toInt.toNat (100000 - 1) = (s e).val
  rw [takeIdx_toInt s src hsrc e, Int.toNat_natCast]
  have := (s e).isLt
  omega

end Take

/-! ## The propagated features -/

/-- A vector of node values laid along the 64 features reads, at (p, q), the vector at p. -/
theorem rowsV_apply (D : FVec Ideal S100000 .f32) (p : Fin 100000) (q : Fin 64) :
    rowsV D (ij p q) = D (Shape.Idx.ofFin p) :=
  bcast_rows _ _ D p q

/-- The scaled features at (p, q). -/
theorem scaleV_apply (D : FVec Ideal S100000 .f32) (x : FVec Ideal S100000x64 .f32) (p : Fin 100000) (q : Fin 64) :
    scaleV D x (ij p q) = D (Shape.Idx.ofFin p) * x (ij p q) := by
  rw [scaleV, ValueIdx.mulf_apply, rowsV_apply]

/-- The propagated features at (j, q), from ANY vectors D, Cn that hold dinv and the self-loop counts and any
    source and target words that are the node numbers s, t: the kernel's arrangement of the propagation step. -/
theorem txV_apply (s t : Fin 1200000 → Fin 100000) (D Cn : FVec Ideal S100000 .f32) (src dst : IVec S1200000 32)
    (x : FVec Ideal S100000x64 .f32)
    (hD : ∀ n : Fin 100000, D (Shape.Idx.ofFin n) = dinv s t n)
    (hC : ∀ n : Fin 100000, Cn (Shape.Idx.ofFin n) = selfCount s t n)
    (hsrc : ∀ e : Fin 1200000, (src (Shape.Idx.ofFin e)).toInt = ((s e).val : ℤ))
    (hdst : ∀ e : Fin 1200000, (dst (Shape.Idx.ofFin e)).toInt = ((t e).val : ℤ))
    (j : Fin 100000) (q : Fin 64) :
    txV (F := Ideal) D Cn src dst x (ij j q) = propKer s t x j q := by
  have h2 := scatterAdd_rows scatter_S100000x64_S1200000x1_S1200000x64_1_0_0_1 rfl rfl rfl rfl
    (broadcastInDim S100000x64 ![] Facts₀.bcast_S_S100000x64 (constant (F := Ideal) S_ .f32 0x00000000#32))
    (colV dst) (takeV (scaleV D x) src) j q
  rw [txV, ValueIdx.mulf_apply, bcast_of_col, hostNegf_apply, bcast_col1, hD, ValueIdx.subf_apply, Host.scatterAdd,
    Ideal.hostScatterAdd_def, h2, ValueIdx.mulf_apply, rowsV_apply, hC, scaleV_apply, hD, propKer]
  refine congrArg (fun z : EReal => -(dinv s t j) * (z - selfCount s t j * (dinv s t j * x (ij j q)))) ?_
  refine zero_add_sum_congr ?_ fun e => ?_
  · rw [bcastF_apply]
    exact Ideal.ofBits_zero_f32
  · rw [colV_apply]
    refine if_congr (toInt_eq_iff _ (t e) j (hdst e)) ?_ rfl
    rw [takeV_apply s src hsrc, scaleV_apply, hD]

end Cert.KernelIdeal.Stages

end
-- ==== Proof.RegionValue.lean ====
import proofs.«404727_j81836306858502_3_alg».proof.Proof.Gen.KernelIdeal.Frame
import proofs.«404727_j81836306858502_3_alg».proof.Proof.ChebSpec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

/-!
# What each of the two kernel launches leaves in its output array

Each launch runs the layer kernel over 20 blocks of 5000 nodes: block t of the output is, row by row,
x * W0 + tx * W1 + b (the two products on the matrix unit, each onto a zero accumulator, the operands
passed through a change of float format that is the identity here), followed in the first launch by max
with 0. The weight and bias windows are the whole arrays at every point. The blocks tile the array, so
after the launch the output array is that function of the launch's input arrays, row by row.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.StableHlo.Predicate Cert.Cheb

variable (V : (c : Dev nD) → (b : Ref sig .tc) → Buf (Elt Ideal) ((c : Thread nD τ).loc b))

/-! ## The matrix unit's product at an index -/

theorem lhs_axis0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_axis1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
theorem rhs_axis0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
theorem rhs_axis1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block of 5000 rows times a 64 by 64 matrix onto the zero accumulator: element (p, q) is 0 plus the sum over k
    of row p's entry k times column q's entry k. -/
theorem matmul_zero_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ij p q)
      = 0 + ∑ k : Fin 64, l (ij p k) * r (ij k q) := by
  simp only [matmul]
  rw [Ideal.matmul_apply, ValueIdx.constant_apply, Ideal.ofBits_zero_f32,
    ← Equiv.sum_comp (ValueIdx.contrEquiv1 dot_S5000x64_S64x64_S5000x64_1_0_0_1_n_n 64 rfl rfl).symm]
  congr 1
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ij p q) ((ValueIdx.contrEquiv1 dot_S5000x64_S64x64_S5000x64_1_0_0_1_n_n 64 rfl rfl).symm k) = ij p k :=
    funext fun a => Fin.ext (by
      match a with
      | ⟨0, _⟩ => exact lhs_axis0 _ _
      | ⟨1, _⟩ => exact (lhs_axis1 _ _).trans hk)
  have er : dot_S5000x64_S64x64_S5000x64_1_0_0_1_n_n.rhsIdx (ij p q) ((ValueIdx.contrEquiv1 dot_S5000x64_S64x64_S5000x64_1_0_0_1_n_n 64 rfl rfl).symm k) = ij k q :=
    funext fun a => Fin.ext (by
      match a with
      | ⟨0, _⟩ => exact (rhs_axis0 _ _).trans hk
      | ⟨1, _⟩ => exact rhs_axis1 _ _)
  rw [el, er]

/-- The bias row laid over the 5000 rows of a block reads, at (p, q), its entry q. -/
theorem bias_apply (v : S1x64.Idx → EReal) (p : Fin 5000) (q : Fin 64) :
    broadcastTo S5000x64 v broadcasts_S1x64_S5000x64 (ij p q) = v (ij (0 : Fin 1) q) := by
  refine broadcastTo_apply v broadcasts_S1x64_S5000x64 (ij p q) (ij (0 : Fin 1) q) fun ax => ?_
  match ax with
  | ⟨0, _⟩ => rfl
  | ⟨1, _⟩ =>
    show q.val = if (64 : Nat) = 1 then 0 else q.val
    rw [if_neg (by decide)]

/-! ## The two payloads at an index -/

/-- The first launch's block: x * W0 + tx * W1 + b, then max with 0. -/
theorem pay0_apply (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ij p q)
      = max (((0 + ∑ k : Fin 64, x0 (ij p k) * x2 (ij k q)) + (0 + ∑ k : Fin 64, x1 (ij p k) * x3 (ij k q)))
          + x4 (ij (0 : Fin 1) q)) 0 := by
  unfold k0_pay1
  simp only [ValueIdx.maximumf_apply, ValueIdx.addf_apply, ValueIdx.broadcast_apply, shapeCast_self, matmul_zero_apply,
    bias_apply, ValueIdx.truncf_apply]
  show max _ (Ideal.ofBits .f32 0x00000000#32) = _
  rw [Ideal.ofBits_zero_f32]

/-- The second launch's block: x * W0 + tx * W1 + b. -/
theorem pay1_apply (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ij p q)
      = ((0 + ∑ k : Fin 64, x0 (ij p k) * x2 (ij k q)) + (0 + ∑ k : Fin 64, x1 (ij p k) * x3 (ij k q)))
          + x4 (ij (0 : Fin 1) q) := by
  unfold k1_pay1
  simp only [ValueIdx.addf_apply, shapeCast_self, matmul_zero_apply, bias_apply, ValueIdx.truncf_apply]

/-! ## A launch's block as the layer of its inputs' rows -/

/-- A layer as an array: entry i is the layer at node i 0, feature i 1, the bias given as a 1 by 64 row. -/
def layerArr (relu : Bool) (x tx : Mat) (w0 w1 : Wt) (b : S1x64.Idx → EReal) : Mat :=
  fun i => layerAt relu x tx w0 w1 (fun k => b (ij (0 : Fin 1) k)) (i 0) (i 1)

/-- Two functions on a block of 5000 by 64 that agree at every (p, q) are equal. -/
theorem block_ext (f g : S5000x64.Idx → EReal) (h : ∀ (p : Fin 5000) (q : Fin 64), f (ij p q) = g (ij p q)) : f = g :=
  funext fun j => by rw [← ij_eta j]; exact h _ _

/-- The first launch's payload at (p, q), when the two row blocks hold row P of two arrays and the other three blocks are
    whole arrays: the layer with max 0 at (P, q). -/
theorem layer_block0 (x0 x1 : Vec Ideal S5000x64 .f32) (x2 x3 : Vec Ideal S64x64 .f32) (x4 : Vec Ideal S1x64 .f32)
    (A0 A1 : Mat) (W0 W1 : Wt) (B : S1x64.Idx → EReal) (P : Fin 100000) (p : Fin 5000) (q : Fin 64)
    (h0 : ∀ k : Fin 64, x0 (ij p k) = A0 (ij P k)) (h1 : ∀ k : Fin 64, x1 (ij p k) = A1 (ij P k))
    (h2 : ∀ i, x2 i = W0 i) (h3 : ∀ i, x3 i = W1 i) (h4 : ∀ i, x4 i = B i) :
    k0_pay1 (F := Ideal) x0 x1 x2 x3 x4 (ij p q) = layerAt true A0 A1 W0 W1 (fun k => B (ij (0 : Fin 1) k)) P q := by
  rw [pay0_apply]
  unfold layerAt
  simp only [h0, h1, h2, h3, h4]
  rfl

/-- The second launch's payload likewise: the layer without the max. -/
theorem layer_block1 (x0 x1 : Vec Ideal S5000x64 .f32) (x2 x3 : Vec Ideal S64x64 .f32) (x4 : Vec Ideal S1x64 .f32)
    (A0 A1 : Mat) (W0 W1 : Wt) (B : S1x64.Idx → EReal) (P : Fin 100000) (p : Fin 5000) (q : Fin 64)
    (h0 : ∀ k : Fin 64, x0 (ij p k) = A0 (ij P k)) (h1 : ∀ k : Fin 64, x1 (ij p k) = A1 (ij P k))
    (h2 : ∀ i, x2 i = W0 i) (h3 : ∀ i, x3 i = W1 i) (h4 : ∀ i, x4 i = B i) :
    k1_pay1 (F := Ideal) x0 x1 x2 x3 x4 (ij p q) = layerAt false A0 A1 W0 W1 (fun k => B (ij (0 : Fin 1) k)) P q := by
  rw [pay1_apply]
  unfold layerAt
  simp only [h0, h1, h2, h3, h4]
  rfl

theorem hz : (![0, 0] : Fin 2 → Nat) = fun _ => 0 := funext fun a => by fin_cases a <;> rfl

/-! ## The first launch -/

/-- The printed index maps over the 20 points: the three row-blocked windows are at block (t, 0), the three whole-array
    windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t holds rows 5000 t … 5000 t + 4999 of its array. -/
theorem iblk0_0_apply (c : Dev nD) (t : Fin cfg0.N) (p : Fin 5000) (k : Fin 64) (P : Fin 100000)
    (hP : P.val = t.val * 5000 + p.val) :
    (iblk0 (F := Ideal) V c 0 t : Vec Ideal S5000x64 .f32) (ij p k) = (V c main_arg1 : S100000x64.Idx → EReal) (ij P k) := by
  obtain ⟨e0, e1, -⟩ := idx_facts0 t
  unfold iblk0
  rw [View.read_apply]
  show V c main_arg1 _ = V c main_arg1 _
  congr 1
  funext a
  apply Fin.ext
  match a with
  | ⟨0, _⟩ => show win0_0.index t (0 : Fin 2) * 5000 + 1 * p.val = P.val; rw [e0, hP]; omega
  | ⟨1, _⟩ => show win0_0.index t (1 : Fin 2) * 64 + 1 * k.val = k.val; rw [e1]; omega

/-- Window 1's block likewise. -/
theorem iblk0_1_apply (c : Dev nD) (t : Fin cfg0.N) (p : Fin 5000) (k : Fin 64) (P : Fin 100000)
    (hP : P.val = t.val * 5000 + p.val) :
    (iblk0 (F := Ideal) V c 1 t : Vec Ideal S5000x64 .f32) (ij p k) = (V c main_v33 : S100000x64.Idx → EReal) (ij P k) := by
  obtain ⟨-, -, e0, e1, -⟩ := idx_facts0 t
  unfold iblk0
  rw [View.read_apply]
  show V c main_v33 _ = V c main_v33 _
  congr 1
  funext a
  apply Fin.ext
  match a with
  | ⟨0, _⟩ => show win0_1.index t (0 : Fin 2) * 5000 + 1 * p.val = P.val; rw [e0, hP]; omega
  | ⟨1, _⟩ => show win0_1.index t (1 : Fin 2) * 64 + 1 * k.val = k.val; rw [e1]; omega

/-- Window 2's block is its whole array at every point. -/
theorem iblk0_2_apply (c : Dev nD) (t : Fin cfg0.N) (i : S64x64.Idx) :
    (iblk0 (F := Ideal) V c 2 t : Vec Ideal S64x64 .f32) i = (V c main_arg2 : S64x64.Idx → EReal) i := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 64 + 1 * (i 0).val = (i 0).val; rw [e0]; omega
  | ⟨1, _⟩ => show win0_2.index t (1 : Fin 2) * 64 + 1 * (i 1).val = (i 1).val; rw [e1]; omega

/-- Window 3's block is its whole array at every point. -/
theorem iblk0_3_apply (c : Dev nD) (t : Fin cfg0.N) (i : S64x64.Idx) :
    (iblk0 (F := Ideal) V c 3 t : Vec Ideal S64x64 .f32) i = (V c main_arg3 : S64x64.Idx → EReal) i := by
  obtain ⟨-, -, -, -, -, -, e0, e1, -⟩ := idx_facts0 t
  unfold iblk0
  rw [View.read_apply]
  show V c main_arg3 _ = V c main_arg3 _
  congr 1
  funext a
  apply Fin.ext
  match a with
  | ⟨0, _⟩ => show win0_3.index t (0 : Fin 2) * 64 + 1 * (i 0).val = (i 0).val; rw [e0]; omega
  | ⟨1, _⟩ => show win0_3.index t (1 : Fin 2) * 64 + 1 * (i 1).val = (i 1).val; rw [e1]; omega

/-- Window 4's block is its whole array at every point. -/
theorem iblk0_4_apply (c : Dev nD) (t : Fin cfg0.N) (i : S1x64.Idx) :
    (iblk0 (F := Ideal) V c 4 t : Vec Ideal S1x64 .f32) i = (V c main_v34 : S1x64.Idx → EReal) i := by
  obtain ⟨-, -, -, -, -, -, -, -, e0, e1, -⟩ := idx_facts0 t
  unfold iblk0
  rw [View.read_apply]
  show V c main_v34 _ = V c main_v34 _
  congr 1
  funext a
  apply Fin.ext
  match a with
  | ⟨0, _⟩ => show win0_4.index t (0 : Fin 2) * 1 + 1 * (i 0).val = (i 0).val; rw [e0]; omega
  | ⟨1, _⟩ => show win0_4.index t (1 : Fin 2) * 64 + 1 * (i 1).val = (i 1).val; rw [e1]; omega

/-- What point t writes back is block t of the layer (with max 0) of the arrays the five input windows stage. -/
theorem flushed0_eq (c : Dev nD) (t : Fin cfg0.N) :
    (dat0 (F := Ideal) V c).flushed 5 t = ((cfg0.win 5).blk t).view.read (Elt Ideal)
      (layerArr true (V c main_arg1) (V c main_v33) (V c main_arg2) (V c main_arg3) (V c main_v34)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts0 t
  have hN : cfg0.N = 20 := N_0
  have ht : t.val < 20 := hN ▸ t.isLt
  refine block_ext _ _ fun p q => ?_
  have hp : p.val < 5000 := p.isLt
  have hemb : ((cfg0.win 5).blk t).view.emb (ij p q) = (ij (⟨t.val * 5000 + p.val, by omega⟩ : Fin 100000) q : S100000x64.Idx) := by
    funext a
    apply Fin.ext
    match a with
    | ⟨0, _⟩ => show win0_5.index t (0 : Fin 2) * 5000 + 1 * p.val = t.val * 5000 + p.val; rw [e0]; omega
    | ⟨1, _⟩ => show win0_5.index t (1 : Fin 2) * 64 + 1 * q.val = q.val; rw [e1]; omega
  show k0_pay1 (F := Ideal) (iblk0 V c 0 t) (iblk0 V c 1 t) (iblk0 V c 2 t) (iblk0 V c 3 t) (iblk0 V c 4 t) (ij p q)
    = layerArr true (V c main_arg1) (V c main_v33) (V c main_arg2) (V c main_arg3) (V c main_v34) (((cfg0.win 5).blk t).view.emb (ij p q))
  rw [hemb]
  exact layer_block0 _ _ _ _ _ (V c main_arg1) (V c main_v33) (V c main_arg2) (V c main_arg3) (V c main_v34) _ p q
    (fun k => iblk0_0_apply V c t p k _ rfl) (fun k => iblk0_1_apply V c t p k _ rfl)
    (iblk0_2_apply V c t) (iblk0_3_apply V c t) (iblk0_4_apply V c t)

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v35).slice (win0_5.rect t)).set ↔ _
  rw [View.set_slice_whole, Rect.mem_set_unit]
  exact Iff.rfl

/-- Every index of the output array is in some point's block: row r in point r / 5000's. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  obtain ⟨-, -, -, -, -, -, -, -, -, -, e0, e1⟩ := idx_facts0 ⟨(i 0).val / 5000, by rw [hN]; omega⟩
  rw [mem_blk0]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- After the first launch, entered with the TensorCore's buffers at V, element (p, q) of its output array is
    the layer (with max 0) of the arrays its five input windows stage. -/
theorem arr0 (c : Dev nD) (p : Fin 100000) (q : Fin 64) :
    (dat0 (F := Ideal) V c).arrAt 5 cfg0.N (ij p q)
      = layerAt true (V c main_arg1) (V c main_v33) (V c main_arg2) (V c main_arg3)
          (fun k => V c main_v34 (ij (0 : Fin 1) k)) p q := by
  rw [(dat0 (F := Ideal) V c).arrAt_eq_of_cover 5
    (layerArr true (V c main_arg1) (V c main_v33) (V c main_arg2) (V c main_arg3) (V c main_v34))
    (fun t _ => flushed0_eq V c t) cover0]
  rfl

/-! ## The second launch -/

/-- The printed index maps over the 20 points: the three row-blocked windows are at block (t, 0), the three whole-array
    windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t holds rows 5000 t … 5000 t + 4999 of its array. -/
theorem iblk1_0_apply (c : Dev nD) (t : Fin cfg1.N) (p : Fin 5000) (k : Fin 64) (P : Fin 100000)
    (hP : P.val = t.val * 5000 + p.val) :
    (iblk1 (F := Ideal) V c 0 t : Vec Ideal S5000x64 .f32) (ij p k) = (V c main_v35 : S100000x64.Idx → EReal) (ij P k) := by
  obtain ⟨e0, e1, -⟩ := idx_facts1 t
  unfold iblk1
  rw [View.read_apply]
  show V c main_v35 _ = V c main_v35 _
  congr 1
  funext a
  apply Fin.ext
  match a with
  | ⟨0, _⟩ => show win1_0.index t (0 : Fin 2) * 5000 + 1 * p.val = P.val; rw [e0, hP]; omega
  | ⟨1, _⟩ => show win1_0.index t (1 : Fin 2) * 64 + 1 * k.val = k.val; rw [e1]; omega

/-- Window 1's block likewise. -/
theorem iblk1_1_apply (c : Dev nD) (t : Fin cfg1.N) (p : Fin 5000) (k : Fin 64) (P : Fin 100000)
    (hP : P.val = t.val * 5000 + p.val) :
    (iblk1 (F := Ideal) V c 1 t : Vec Ideal S5000x64 .f32) (ij p k) = (V c main_v50 : S100000x64.Idx → EReal) (ij P k) := by
  obtain ⟨-, -, e0, e1, -⟩ := idx_facts1 t
  unfold iblk1
  rw [View.read_apply]
  show V c main_v50 _ = V c main_v50 _
  congr 1
  funext a
  apply Fin.ext
  match a with
  | ⟨0, _⟩ => show win1_1.index t (0 : Fin 2) * 5000 + 1 * p.val = P.val; rw [e0, hP]; omega
  | ⟨1, _⟩ => show win1_1.index t (1 : Fin 2) * 64 + 1 * k.val = k.val; rw [e1]; omega

/-- Window 2's block is its whole array at every point. -/
theorem iblk1_2_apply (c : Dev nD) (t : Fin cfg1.N) (i : S64x64.Idx) :
    (iblk1 (F := Ideal) V c 2 t : Vec Ideal S64x64 .f32) i = (V c main_arg5 : S64x64.Idx → EReal) i := by
  obtain ⟨-, -, -, -, e0, e1, -⟩ := idx_facts1 t
  unfold iblk1
  rw [View.read_apply]
  show V c main_arg5 _ = V c main_arg5 _
  congr 1
  funext a
  apply Fin.ext
  match a with
  | ⟨0, _⟩ => show win1_2.index t (0 : Fin 2) * 64 + 1 * (i 0).val = (i 0).val; rw [e0]; omega
  | ⟨1, _⟩ => show win1_2.index t (1 : Fin 2) * 64 + 1 * (i 1).val = (i 1).val; rw [e1]; omega

/-- Window 3's block is its whole array at every point. -/
theorem iblk1_3_apply (c : Dev nD) (t : Fin cfg1.N) (i : S64x64.Idx) :
    (iblk1 (F := Ideal) V c 3 t : Vec Ideal S64x64 .f32) i = (V c main_arg6 : S64x64.Idx → EReal) i := by
  obtain ⟨-, -, -, -, -, -, e0, e1, -⟩ := idx_facts1 t
  unfold iblk1
  rw [View.read_apply]
  show V c main_arg6 _ = V c main_arg6 _
  congr 1
  funext a
  apply Fin.ext
  match a with
  | ⟨0, _⟩ => show win1_3.index t (0 : Fin 2) * 64 + 1 * (i 0).val = (i 0).val; rw [e0]; omega
  | ⟨1, _⟩ => show win1_3.index t (1 : Fin 2) * 64 + 1 * (i 1).val = (i 1).val; rw [e1]; omega

/-- Window 4's block is its whole array at every point. -/
theorem iblk1_4_apply (c : Dev nD) (t : Fin cfg1.N) (i : S1x64.Idx) :
    (iblk1 (F := Ideal) V c 4 t : Vec Ideal S1x64 .f32) i = (V c main_v51 : S1x64.Idx → EReal) i := by
  obtain ⟨-, -, -, -, -, -, -, -, e0, e1, -⟩ := idx_facts1 t
  unfold iblk1
  rw [View.read_apply]
  show V c main_v51 _ = V c main_v51 _
  congr 1
  funext a
  apply Fin.ext
  match a with
  | ⟨0, _⟩ => show win1_4.index t (0 : Fin 2) * 1 + 1 * (i 0).val = (i 0).val; rw [e0]; omega
  | ⟨1, _⟩ => show win1_4.index t (1 : Fin 2) * 64 + 1 * (i 1).val = (i 1).val; rw [e1]; omega

/-- What point t writes back is block t of the layer (without the max) of the arrays the five input windows stage. -/
theorem flushed1_eq (c : Dev nD) (t : Fin cfg1.N) :
    (dat1 (F := Ideal) V c).flushed 5 t = ((cfg1.win 5).blk t).view.read (Elt Ideal)
      (layerArr false (V c main_v35) (V c main_v50) (V c main_arg5) (V c main_arg6) (V c main_v51)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts1 t
  have hN : cfg1.N = 20 := N_1
  have ht : t.val < 20 := hN ▸ t.isLt
  refine block_ext _ _ fun p q => ?_
  have hp : p.val < 5000 := p.isLt
  have hemb : ((cfg1.win 5).blk t).view.emb (ij p q) = (ij (⟨t.val * 5000 + p.val, by omega⟩ : Fin 100000) q : S100000x64.Idx) := by
    funext a
    apply Fin.ext
    match a with
    | ⟨0, _⟩ => show win1_5.index t (0 : Fin 2) * 5000 + 1 * p.val = t.val * 5000 + p.val; rw [e0]; omega
    | ⟨1, _⟩ => show win1_5.index t (1 : Fin 2) * 64 + 1 * q.val = q.val; rw [e1]; omega
  show k1_pay1 (F := Ideal) (iblk1 V c 0 t) (iblk1 V c 1 t) (iblk1 V c 2 t) (iblk1 V c 3 t) (iblk1 V c 4 t) (ij p q)
    = layerArr false (V c main_v35) (V c main_v50) (V c main_arg5) (V c main_arg6) (V c main_v51) (((cfg1.win 5).blk t).view.emb (ij p q))
  rw [hemb]
  exact layer_block1 _ _ _ _ _ (V c main_v35) (V c main_v50) (V c main_arg5) (V c main_arg6) (V c main_v51) _ p q
    (fun k => iblk1_0_apply V c t p k _ rfl) (fun k => iblk1_1_apply V c t p k _ rfl)
    (iblk1_2_apply V c t) (iblk1_3_apply V c t) (iblk1_4_apply V c t)

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v52).slice (win1_5.rect t)).set ↔ _
  rw [View.set_slice_whole, Rect.mem_set_unit]
  exact Iff.rfl

/-- Every index of the output array is in some point's block: row r in point r / 5000's. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  obtain ⟨-, -, -, -, -, -, -, -, -, -, e0, e1⟩ := idx_facts1 ⟨(i 0).val / 5000, by rw [hN]; omega⟩
  rw [mem_blk1]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

/-- After the second launch, entered at V: the layer without the max. -/
theorem arr1 (c : Dev nD) (p : Fin 100000) (q : Fin 64) :
    (dat1 (F := Ideal) V c).arrAt 5 cfg1.N (ij p q)
      = layerAt false (V c main_v35) (V c main_v50) (V c main_arg5) (V c main_arg6)
          (fun k => V c main_v51 (ij (0 : Fin 1) k)) p q := by
  rw [(dat1 (F := Ideal) V c).arrAt_eq_of_cover 5
    (layerArr false (V c main_v35) (V c main_v50) (V c main_arg5) (V c main_arg6) (V c main_v51))
    (fun t _ => flushed1_eq V c t) cover1]
  rfl

end Cert.KernelIdeal.RegionValue

end
-- ==== Proof.KernelValue.lean ====
import proofs.«404727_j81836306858502_3_alg».proof.Proof.KernelRun
import proofs.«404727_j81836306858502_3_alg».proof.Proof.KernelHost
import proofs.«404727_j81836306858502_3_alg».proof.Proof.KernelStagesRead
import proofs.«404727_j81836306858502_3_alg».proof.Proof.RegionValue
import proofs.«404727_j81836306858502_3_alg».proof.Proof.ChebSpec
import Idealize.ShloMosaic.Lib.ValueLayout

/-!
# The kernel program's result is the two-layer network

The result buffer is the second launch's output array: the layer (no max) of the first launch's output, its
propagated form, and the second layer's weights and bias. The first launch's output is the layer (with
max 0) of the launched features, their propagated form, and the first layer's weights and bias. Each
propagated form is the kernel's arrangement of the propagation step, over dinv, self-loop counts, sources
and targets that depend on the edge array alone. So the result is the network over that arrangement.
-/

set_option maxRecDepth 16384

noncomputable section

namespace Cert.KernelIdeal.KernelValue

open Cert.KernelIdeal Cert.KernelIdeal.Gen Cert.KernelIdeal.Stages Cert.KernelIdeal.HostValue Cert.KernelIdeal.RegionValue
open Idealize.ShloMosaic Idealize.ShloMosaic.TcCoe Idealize.SL.Sem Idealize.ShloMosaic.StableHlo.Predicate
open Cert.Cheb Cert.Lib

/-- The layer depends on its five arrays only through their values. -/
theorem layerAt_congr {relu : Bool} {x x' tx tx' : Mat} {w0 w0' w1 w1' : Wt} {b b' : Fin 64 → EReal}
    (hx : x = x') (htx : tx = tx') (hw0 : w0 = w0') (hw1 : w1 = w1') (hb : b = b') (p : Fin 100000) (q : Fin 64) :
    layerAt relu x tx w0 w1 b p q = layerAt relu x' tx' w0' w1' b' p q := by
  subst hx htx hw0 hw1 hb; rfl

/-- A bias vector reshaped to a row reads, at (0, k), the vector at k. -/
theorem bias_row (b : (⟨1, ![64]⟩ : Shape).Idx → EReal) (h : (⟨1, ![64]⟩ : Shape).ShapeCasts ⟨2, ![1, 64]⟩) (k : Fin 64) :
    shapeCast ⟨2, ![1, 64]⟩ b h (ij (0 : Fin 1) k) = b (Shape.Idx.ofFin k) := by
  have e1 : (ij (0 : Fin 1) k : (⟨2, ![1, 64]⟩ : Shape).Idx) = ValueIdx.ix2 (0 : Fin 1) k := by
    funext a; match a with | ⟨0, _⟩ => rfl | ⟨1, _⟩ => rfl
  have e2 : (Shape.Idx.ofFin k : (⟨1, ![64]⟩ : Shape).Idx) = ValueIdx.ix1 k := by
    funext a; match a with | ⟨0, _⟩ => rfl
  rw [e1, e2]
  exact ValueIdx.shapeCast_a_1a_apply b h 0 k

section Value

variable (m : (ℓ : Loc nD τ sig) → Buf (Elt Ideal) ℓ) (ρ : Dev nD → PrngReg) (c : Dev nD)
  (s t : Fin 1200000 → Fin 100000)
  (hs : ∀ e : Fin 1200000, ((m ((c : Thread nD τ).loc main_arg0) : IVec S2x1200000 32) (ij (0 : Fin 2) e)).toInt = ((s e).val : ℤ))
  (ht : ∀ e : Fin 1200000, ((m ((c : Thread nD τ).loc main_arg0) : IVec S2x1200000 32) (ij (1 : Fin 2) e)).toInt = ((t e).val : ℤ))

include hs ht

/-- The sources, read signed, are the node numbers s. -/
theorem src_nodes (e : Fin 1200000) :
    ((srcV (m ((c : Thread nD τ).loc main_arg0)) : IVec S1200000 32) (Shape.Idx.ofFin e)).toInt = ((s e).val : ℤ) := by
  rw [srcV_apply]; exact hs e

/-- The targets, read signed, are the node numbers t. -/
theorem dst_nodes (e : Fin 1200000) :
    ((dstV (m ((c : Thread nD τ).loc main_arg0)) : IVec S1200000 32) (Shape.Idx.ofFin e)).toInt = ((t e).val : ℤ) := by
  rw [dstV_apply]; exact ht e

/-- The propagated features the first launch stages are the kernel's arrangement over the launched features. -/
theorem tx1_eq :
    (W5 m ρ c (Proc.devRef .tc main_v33) : Mat) = matOf (propKer s t (m ((c : Thread nD τ).loc main_arg1))) := by
  rw [tx_at5]
  funext i
  rw [← ij_eta i]
  exact txV_apply s t _ _ _ _ _ (dinvV_apply _ s t hs ht) (cntV_apply _ s t hs ht) (src_nodes m c s t hs ht)
    (dst_nodes m c s t hs ht) _ _

/-- The first launch's output array is the first layer over the kernel's arrangement. -/
theorem x1_eq :
    (W6 m ρ c (Proc.devRef .tc main_v35) : Mat)
      = matOf (layerAt true (m ((c : Thread nD τ).loc main_arg1)) (matOf (propKer s t (m ((c : Thread nD τ).loc main_arg1))))
          (m ((c : Thread nD τ).loc main_arg2)) (m ((c : Thread nD τ).loc main_arg3))
          (fun k => (m ((c : Thread nD τ).loc main_arg4) : S64.Idx → EReal) (Shape.Idx.ofFin k))) := by
  have h6 : W6 m ρ c (Proc.devRef .tc main_v35) = (dat0 (V5 m ρ) c).arrAt 5 cfg0.N := W6_arr m ρ c 5
  rw [h6]
  funext i
  rw [← ij_eta i]
  refine (arr0 (V5 m ρ) c (i 0) (i 1)).trans ?_
  show _ = layerAt true _ _ _ _ _ (i 0) (i 1)
  refine layerAt_congr (x_at5 m ρ c) (tx1_eq m ρ c s t hs ht) (w0_at5 m ρ c) (w1_at5 m ρ c) ?_ _ _
  funext k
  show (W5 m ρ c (Proc.devRef .tc main_v34) : S1x64.Idx → EReal) (ij (0 : Fin 1) k) = _
  rw [bias_at5]
  exact bias_row _ _ k

/-- The propagated features the second launch stages are the kernel's arrangement over the first launch's output. -/
theorem tx2_eq :
    (W9 m ρ c (Proc.devRef .tc main_v50) : Mat) = matOf (propKer s t (W6 m ρ c (Proc.devRef .tc main_v35))) := by
  rw [tx_at9]
  have e15 : W6 m ρ c (Proc.devRef .tc main_v15) = W5 m ρ c (Proc.devRef .tc main_v15) := W6_of_ne m ρ c main_v15 (by decide)
  have e18 : W6 m ρ c (Proc.devRef .tc main_v18) = W5 m ρ c (Proc.devRef .tc main_v18) := W6_of_ne m ρ c main_v18 (by decide)
  have e1 : W6 m ρ c (Proc.devRef .tc main_v1) = W5 m ρ c (Proc.devRef .tc main_v1) := W6_of_ne m ρ c main_v1 (by decide)
  have e3 : W6 m ρ c (Proc.devRef .tc main_v3) = W5 m ρ c (Proc.devRef .tc main_v3) := W6_of_ne m ρ c main_v3 (by decide)
  rw [e15, e18, e1, e3, dinv_at5, cnt_at5, src_at5, dst_at5]
  funext i
  rw [← ij_eta i]
  exact txV_apply s t _ _ _ _ _ (dinvV_apply _ s t hs ht) (cntV_apply _ s t hs ht) (src_nodes m c s t hs ht)
    (dst_nodes m c s t hs ht) _ _

/-- THE KERNEL'S RESULT at (p, q): the network over the kernel's arrangement of the propagation step. -/
theorem result_eq (p : Fin 100000) (q : Fin 64) :
    (W10 m ρ c (Proc.devRef .tc main_v52) : Mat) (ij p q)
      = netWith (propKer s t) (m ((c : Thread nD τ).loc main_arg1)) (m ((c : Thread nD τ).loc main_arg2))
          (m ((c : Thread nD τ).loc main_arg3)) (fun k => (m ((c : Thread nD τ).loc main_arg4) : S64.Idx → EReal) (Shape.Idx.ofFin k))
          (m ((c : Thread nD τ).loc main_arg5)) (m ((c : Thread nD τ).loc main_arg6))
          (fun k => (m ((c : Thread nD τ).loc main_arg7) : S64.Idx → EReal) (Shape.Idx.ofFin k)) p q := by
  have h10 : W10 m ρ c (Proc.devRef .tc main_v52) = (dat1 (V9 m ρ) c).arrAt 5 cfg1.N := W10_arr m ρ c 5
  rw [h10]
  refine (arr1 (V9 m ρ) c p q).trans ?_
  unfold netWith
  show _ = layerAt false _ _ _ _ _ p q
  have a5 : W6 m ρ c (Proc.devRef .tc main_arg5) = m ((c : Thread nD τ).loc main_arg5) :=
    (W6_of_ne m ρ c main_arg5 (by decide)).trans (arg5_at5 m ρ c)
  have a6 : W6 m ρ c (Proc.devRef .tc main_arg6) = m ((c : Thread nD τ).loc main_arg6) :=
    (W6_of_ne m ρ c main_arg6 (by decide)).trans (arg6_at5 m ρ c)
  have a7 : W6 m ρ c (Proc.devRef .tc main_arg7) = m ((c : Thread nD τ).loc main_arg7) :=
    (W6_of_ne m ρ c main_arg7 (by decide)).trans (arg7_at5 m ρ c)
  refine layerAt_congr ((x_at9 m ρ c).trans (x1_eq m ρ c s t hs ht))
    ((tx2_eq m ρ c s t hs ht).trans (by rw [x1_eq m ρ c s t hs ht])) ((w0_at9 m ρ c).trans a5) ((w1_at9 m ρ c).trans a6) ?_ _ _
  funext k
  show (W9 m ρ c (Proc.devRef .tc main_v51) : S1x64.Idx → EReal) (ij (0 : Fin 1) k) = _
  rw [bias_at9, a7]
  exact bias_row _ _ k

end Value

end Cert.KernelIdeal.KernelValue

end
-- ==== Proof.PreDecode.lean ====
import proofs.«404727_j81836306858502_3_alg».proof.Pre_finite_inputs
import proofs.«404727_j81836306858502_3_alg».proof.Proof.LibIdealReal
import Idealize.ShloMosaic.Lib.ReduceAll
import Idealize.ShloMosaic.Lib.StableHlo.Predicate
import Idealize.ShloMosaic.Lib.ValueIdx
import Idealize.ShloMosaic.PureOps.Ideal.Laws

/-!
# What the precondition says, element by element

The precondition is one conjunction of "all" tests: every entry of every float input has absolute value
below +inf, and every entry of the edge index array is at least 0 and below 100000 (the number of
nodes). Read at the ideal float instance this says: every float entry is a real number, and every edge
endpoint is a node number.
-/

open Idealize.ShloMosaic Cert.Lib

namespace Cert.PreDecode

/-- The `f32` pattern `0x7F800000` denotes `+∞`. -/
theorem ofBits_f32_inf : Ideal.ofBits .f32 0x7F800000#32 = (⊤ : EReal) := by
  simp [Ideal.ofBits, Ideal.ieee]

/-- One float "all" test: if the conjunction over every index of `|x| < +∞` is 1, every entry of `x` is real. -/
theorem real_of_all {s : Shape} {axes : List (Fin s.rank)} {u : Shape} (x : FVec Ideal s .f32)
    (hb : (⟨0, ![]⟩ : Shape).BroadcastsInDim s (![] : Fin 0 → Fin s.rank))
    (hr : s.ReducesTo axes ⟨0, ![]⟩) (hu : 0 < u.numel) (init : u.Idx → BitVec 1)
    (e : Host.reduce IntOp.andi
        (cmpf .olt (Host.absf x) (broadcastInDim s ![] hb (constant (F := Ideal) ⟨0, ![]⟩ .f32 0x7F800000#32)))
        init hr hu ValueIdx.ix0 = 1#1)
    (i : s.Idx) : IsReal (x i) := by
  -- the scalar shape has one index, so the conjunction ranges over every entry
  haveI : Subsingleton (⟨0, ![]⟩ : Shape).Idx := ⟨fun a b => funext fun d => d.elim0⟩
  have h1 := Host.reduce_andi_all _ init hr hu ValueIdx.ix0 e i
  apply isReal_of_abs_lt_top
  -- at entry i the test is the comparison of max (x i) (-(x i)) with the value of the pattern, +∞
  have h2 : Ideal.cmp .olt (Max.max (x i) (-(x i))) (Ideal.ofBits .f32 0x7F800000#32) = 1#1 := h1
  rw [ofBits_f32_inf] at h2
  unfold Ideal.cmp at h2
  rw [StableHlo.Predicate.ofBool_eq_one_iff] at h2
  exact of_decide_eq_true h2

/-- The integer "all" test: if the conjunction over every index of `0 ≤ x` and `x < 100000` (signed) is 1,
    every entry of `x`, read signed, is in [0, 100000). -/
theorem range_of_all {s : Shape} {axes : List (Fin s.rank)} {u : Shape} (x : IVec s 32)
    (hb : (⟨0, ![]⟩ : Shape).BroadcastsInDim s (![] : Fin 0 → Fin s.rank))
    (hr : s.ReducesTo axes ⟨0, ![]⟩) (hu : 0 < u.numel) (init : u.Idx → BitVec 1)
    (e : Host.reduce IntOp.andi
        (andi (cmpi .sge x (broadcastInDim s ![] hb (constantI ⟨0, ![]⟩ 32 0#32)))
          (cmpi .slt x (broadcastInDim s ![] hb (constantI ⟨0, ![]⟩ 32 100000#32)))) init hr hu ValueIdx.ix0 = 1#1)
    (i : s.Idx) : 0 ≤ (x i).toInt ∧ (x i).toInt < 100000 := by
  haveI : Subsingleton (⟨0, ![]⟩ : Shape).Idx := ⟨fun a b => funext fun d => d.elim0⟩
  have h1 := Host.reduce_andi_all _ init hr hu ValueIdx.ix0 e i
  -- at entry i the test is the conjunction of the two signed comparisons against the constants
  have h2 : IntOp.andi (IntOp.cmpi .sge (x i) 0#32) (IntOp.cmpi .slt (x i) 100000#32) = 1#1 := h1
  obtain ⟨ha, hc⟩ := IntOp.andi_eq_one.1 h2
  unfold IntOp.cmpi at ha hc
  rw [StableHlo.Predicate.ofBool_eq_one_iff] at ha hc
  simp only [BitVec.sle, BitVec.slt, decide_eq_true_eq] at ha hc
  have z : (0#32 : BitVec 32).toInt = 0 := by decide
  have c : (100000#32 : BitVec 32).toInt = 100000 := by decide
  rw [z] at ha; rw [c] at hc
  exact ⟨ha, hc⟩

/-- The precondition, all ones, gives: each float input real-valued, each edge endpoint in [0, 100000). -/
theorem of_pre [Cert.Pre_finite_inputs.Facts]
    (ei : IVec ⟨2, ![2, 1200000]⟩ 32) (emb : FVec Ideal ⟨2, ![100000, 64]⟩ .f32)
    (w10 w11 : FVec Ideal ⟨2, ![64, 64]⟩ .f32) (b1 : FVec Ideal ⟨1, ![64]⟩ .f32)
    (w20 w21 : FVec Ideal ⟨2, ![64, 64]⟩ .f32) (b2 : FVec Ideal ⟨1, ![64]⟩ .f32)
    (h : Cert.Pre_finite_inputs.fn (F := Ideal) ei emb w10 w11 b1 w20 w21 b2 = fun _ => 1#1) :
    (∀ i, IsReal (emb i)) ∧ (∀ i, IsReal (w10 i)) ∧ (∀ i, IsReal (w11 i)) ∧ (∀ i, IsReal (b1 i))
      ∧ (∀ i, IsReal (w20 i)) ∧ (∀ i, IsReal (w21 i)) ∧ (∀ i, IsReal (b2 i))
      ∧ (∀ i, 0 ≤ (ei i).toInt ∧ (ei i).toInt < 100000) := by
  -- the precondition at the scalar result's one index
  have e := congrFun h ValueIdx.ix0
  unfold Cert.Pre_finite_inputs.fn Cert.Pre_finite_inputs.fn_part1 Cert.Pre_finite_inputs.fn_part2 at e
  dsimp only at e
  -- a conjunction of eight "all" tests, nested to the left: split it, outermost first
  obtain ⟨e33, e39⟩ := IntOp.andi_eq_one.1 e
  obtain ⟨e28, e32⟩ := IntOp.andi_eq_one.1 e33
  obtain ⟨e23, e27⟩ := IntOp.andi_eq_one.1 e28
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  exact ⟨real_of_all emb _ _ _ _ e3, real_of_all w10 _ _ _ _ e7, real_of_all w11 _ _ _ _ e12,
    real_of_all b1 _ _ _ _ e17, real_of_all w20 _ _ _ _ e22, real_of_all w21 _ _ _ _ e27,
    real_of_all b2 _ _ _ _ e32, range_of_all ei _ _ _ _ e39⟩

end Cert.PreDecode
-- ==== Proof.lean ====
/- The certificate of a two-layer Chebyshev graph convolution (K = 2) against its plain reference.

   Both programs compute, from an edge array and node features, two layers  x * W0 + (prop x) * W1 + b  (max with 0 after the
   first), where prop is the propagation step of the scaled graph Laplacian. The reference weights every edge by
   -dinv(source) * w * dinv(target), w = 0 on a self loop, and sums over the edges into each node. The kernel program scales the
   features by dinv once per node, sums over ALL edges into each node, takes the self loops' share (their count times the
   node's own scaled features) back out, and scales by -dinv once; its two layers run as kernel launches over blocks of 5000 nodes.
   Over real (finite) features and with every edge endpoint a node number the two arrangements agree (the propagation
   identity); the first layer's output is again real, so they agree in the second layer too.

   The precondition: every float input finite, every edge endpoint in [0, 100000). The second conjunct is the domain of the
   reference's own indexing; outside it the kernel's take fills a row with the not-a-number word where the reference's gather
   clamps.

   The three frames: the two kernel programs' by the generated frame certificates, the reference's by its run read back. The
   idealization changed nothing in the kernel's text, so there is nothing to preserve. -/
import proofs.«404727_j81836306858502_3_alg».proof.Defs
import proofs.«404727_j81836306858502_3_alg».proof.Proof.Gen.Kernel
import proofs.«404727_j81836306858502_3_alg».proof.Proof.Gen.Kernel.Frame
import proofs.«404727_j81836306858502_3_alg».proof.Proof.Gen.KernelIdeal
import proofs.«404727_j81836306858502_3_alg».proof.Proof.Gen.KernelIdeal.Frame
import proofs.«404727_j81836306858502_3_alg».proof.Proof.Gen.ReferenceIdeal
import proofs.«404727_j81836306858502_3_alg».proof.Proof.Gen.Pre_finite_inputs
import proofs.«404727_j81836306858502_3_alg».proof.Proof.RefRun
import proofs.«404727_j81836306858502_3_alg».proof.Proof.RefValue
import proofs.«404727_j81836306858502_3_alg».proof.Proof.KernelRun
import proofs.«404727_j81836306858502_3_alg».proof.Proof.KernelValue
import proofs.«404727_j81836306858502_3_alg».proof.Proof.PreDecode
import proofs.«404727_j81836306858502_3_alg».proof.Proof.ChebSpec
import Idealize.ShloMosaic.Adequacy
import Idealize.ShloMosaic.Init

set_option maxRecDepth 16384

noncomputable section

namespace Cert.Proof

open Idealize.ShloMosaic Idealize.SL.Sem Idealize.ShloMosaic.StableHlo.Predicate Cert.Cheb Cert.Lib

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: element by element the
    kernel's is the network over its own arrangement of the propagation step, the reference's the network over the
    reference's, and on real inputs with node-number endpoints the two networks are one function. -/
theorem algebraic : Cert.algebraic_KernelIdeal_ReferenceIdeal := by
  intro m ρ m' ρ' hpre hagree
  refine ⟨fun c => Cert.KernelIdeal.Gen.W10 m ρ c (Proc.devRef .tc Cert.KernelIdeal.main_v52),
    Cert.KernelIdeal.Gen.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨hemb, hw10, hw11, hb1, -, -, -, hidx⟩ := Cert.PreDecode.of_pre _ _ _ _ _ _ _ _ (hpre c)
  obtain ⟨a0, a1, a2, a3, a4, a5, a6, a7⟩ := hagree c
  -- the node numbers of the edges' endpoints
  have hlo : ∀ i, 0 ≤ ((m ((c.tc : Thread Cert.KernelIdeal.nD Cert.KernelIdeal.τ).loc Cert.KernelIdeal.main_arg0)
      : IVec ⟨2, ![2, 1200000]⟩ 32) i).toInt := fun i => (hidx i).1
  have hhi : ∀ i, ((m ((c.tc : Thread Cert.KernelIdeal.nD Cert.KernelIdeal.τ).loc Cert.KernelIdeal.main_arg0)
      : IVec ⟨2, ![2, 1200000]⟩ 32) i).toInt < 100000 := fun i => (hidx i).2
  let s : Fin 1200000 → Fin 100000 := fun e =>
    ⟨((m ((c.tc : Thread Cert.KernelIdeal.nD Cert.KernelIdeal.τ).loc Cert.KernelIdeal.main_arg0)
      : IVec ⟨2, ![2, 1200000]⟩ 32) (ij (0 : Fin 2) e)).toInt.toNat, by have := hlo (ij (0 : Fin 2) e); have := hhi (ij (0 : Fin 2) e); omega⟩
  let t : Fin 1200000 → Fin 100000 := fun e =>
    ⟨((m ((c.tc : Thread Cert.KernelIdeal.nD Cert.KernelIdeal.τ).loc Cert.KernelIdeal.main_arg0)
      : IVec ⟨2, ![2, 1200000]⟩ 32) (ij (1 : Fin 2) e)).toInt.toNat, by have := hlo (ij (1 : Fin 2) e); have := hhi (ij (1 : Fin 2) e); omega⟩
  have hs : ∀ e : Fin 1200000, ((m ((c.tc : Thread Cert.KernelIdeal.nD Cert.KernelIdeal.τ).loc Cert.KernelIdeal.main_arg0)
      : IVec ⟨2, ![2, 1200000]⟩ 32) (ij (0 : Fin 2) e)).toInt = ((s e).val : ℤ) := fun e =>
    (Int.toNat_of_nonneg (hlo _)).symm
  have ht : ∀ e : Fin 1200000, ((m ((c.tc : Thread Cert.KernelIdeal.nD Cert.KernelIdeal.τ).loc Cert.KernelIdeal.main_arg0)
      : IVec ⟨2, ![2, 1200000]⟩ 32) (ij (1 : Fin 2) e)).toInt = ((t e).val : ℤ) := fun e =>
    (Int.toNat_of_nonneg (hlo _)).symm
  funext i
  rw [← ij_eta i]
  refine (Cert.ReferenceIdeal.RefValue.result_eq m' c s t (by rw [a0]; exact hs) (by rw [a0]; exact ht) (i 0) (i 1)).trans ?_
  rw [a1, a2, a3, a4, a5, a6, a7]
  refine ((Cert.KernelIdeal.KernelValue.result_eq m ρ c s t hs ht (i 0) (i 1)).trans ?_).symm
  exact netWith_ker_eq_ref s t _ _ _ _ _ _ _ hemb hw10 hw11 (fun q => hb1 _) _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
